-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10_0)) (v1 : (c : Dev Cert.KernelIdeal.nD) → Buf (Elt Ideal) ((c.tc : Thread Cert.KernelIdeal.nD Cert.KernelIdeal.τ).loc Cert.KernelIdeal.main_v10_1)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10_0) = v0 c
          ∧ r.2.mem ((c.tc : Thread Cert.KernelIdeal.nD Cert.KernelIdeal.τ).loc Cert.KernelIdeal.main_v10_1) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v62) = v1 c
          ∧ r.2.mem ((c.tc : Thread Cert.ReferenceIdeal.nD Cert.ReferenceIdeal.τ).loc Cert.ReferenceIdeal.main_v170) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x4 : Shape := ⟨2, ![131072, 4]⟩
abbrev S8x64 : Shape := ⟨2, ![8, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S131072x4 : S_.BroadcastsInDim S131072x4 (![] : Fin 0 → Fin S131072x4.rank)
  reducesTo_S131072x4_S_d0_1 : S131072x4.ReducesTo [0, 1] S_
  h_S_ : 0 < S_.numel
  bcast_S_S8x64 : S_.BroadcastsInDim S8x64 (![] : Fin 0 → Fin S8x64.rank)
  reducesTo_S8x64_S_d0_1 : S8x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg11 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S64 .f32) (main_arg8 : FVec F S64x64 .f32) (main_arg9 : FVec F S64 .f32) (main_arg10 : FVec F S64x1 .f32) (main_arg11 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x1 .f32 := Host.absf main_arg10
  let main_cst_18 : FVec F S_ .f32 := constant S_ .f32 0x7F800000#32
  let main_v50 : FVec F S64x1 .f32 := broadcastInDim S64x1 ![] bcast_S_S64x1 main_cst_18
  fn_part3 (F := F) main_arg11 main_v48 main_v49 main_v50

def fn_part1 {F : FTy → Type} [FloatOps F] (main_arg4 : FVec F S8x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) (main_v13 : IVec S_ 1) (main_v16 : IVec S131072x4 1) : IVec S_ 1 :=
  let main_c_5 : IVec S_ 1 := constantI S_ 1 1#1
  let main_v17 : IVec S_ 1 := (fun x v => Host.reduce IntOp.andi x v reducesTo_S131072x4_S_d0_1 h_S_) main_v16 main_c_5
  let main_v18 : IVec S_ 1 := andi main_v13 main_v17
  let main_v19 : FVec F S8x64 .f32 := Host.absf main_arg4
  let main_cst_6 : FVec F S_ .f32 := constant S_ .f32 0x7F800000#32
  let main_v20 : FVec F S8x64 .f32 := broadcastInDim S8x64 ![] bcast_S_S8x64 main_cst_6
  let main_v21 : IVec S8x64 1 := cmpf .olt main_v19 main_v20
  let main_c_7 : IVec S_ 1 := constantI S_ 1 1#1
  let main_v22 : IVec S_ 1 := (fun x v => Host.reduce IntOp.andi x v reducesTo_S8x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S131072x4 .f32) (main_arg1 : FVec F S131072x4 .f32) (main_arg2 : FVec F S131072x4 .f32) (main_arg3 : FVec F S131072x4 .f32) (main_arg4 : FVec F S8x64 .f32) (main_arg5 : FVec F S64 .f32) (main_arg6 : FVec F S64x64 .f32) (main_arg7 : FVec F S64 .f32) (main_arg8 : FVec F S64x64 .f32) (main_arg9 : FVec F S64 .f32) (main_arg10 : FVec F S64x1 .f32) (main_arg11 : FVec F S1 .f32) : IVec S_ 1 :=
  let main_v0 : FVec F S131072x4 .f32 := Host.absf main_arg0
  let main_cst : FVec F S_ .f32 := constant S_ .f32 0x7F800000#32
  let main_v1 : FVec F S131072x4 .f32 := broadcastInDim S131072x4 ![] bcast_S_S131072x4 main_cst
  let main_v2 : IVec S131072x4 1 := cmpf .olt main_v0 main_v1
  let main_c : IVec S_ 1 := constantI S_ 1 1#1
  let main_v3 : IVec S_ 1 := (fun x v => Host.reduce IntOp.andi x v reducesTo_S131072x4_S_d0_1 h_S_) main_v2 main_c
  let main_v4 : FVec F S131072x4 .f32 := Host.absf main_arg1
  let main_cst_0 : FVec F S_ .f32 := constant S_ .f32 0x7F800000#32
  let main_v5 : FVec F S131072x4 .f32 := broadcastInDim S131072x4 ![] bcast_S_S131072x4 main_cst_0
  let main_v6 : IVec S131072x4 1 := cmpf .olt main_v4 main_v5
  let main_c_1 : IVec S_ 1 := constantI S_ 1 1#1
  let main_v7 : IVec S_ 1 := (fun x v => Host.reduce IntOp.andi x v reducesTo_S131072x4_S_d0_1 h_S_) main_v6 main_c_1
  let main_v8 : IVec S_ 1 := andi main_v3 main_v7
  let main_v9 : FVec F S131072x4 .f32 := Host.absf main_arg2
  let main_cst_2 : FVec F S_ .f32 := constant S_ .f32 0x7F800000#32
  let main_v10 : FVec F S131072x4 .f32 := broadcastInDim S131072x4 ![] bcast_S_S131072x4 main_cst_2
  let main_v11 : IVec S131072x4 1 := cmpf .olt main_v9 main_v10
  let main_c_3 : IVec S_ 1 := constantI S_ 1 1#1
  let main_v12 : IVec S_ 1 := (fun x v => Host.reduce IntOp.andi x v reducesTo_S131072x4_S_d0_1 h_S_) main_v11 main_c_3
  let main_v13 : IVec S_ 1 := andi main_v8 main_v12
  let main_v14 : FVec F S131072x4 .f32 := Host.absf main_arg3
  let main_cst_4 : FVec F S_ .f32 := constant S_ .f32 0x7F800000#32
  let main_v15 : FVec F S131072x4 .f32 := broadcastInDim S131072x4 ![] bcast_S_S131072x4 main_cst_4
  let main_v16 : IVec S131072x4 1 := cmpf .olt main_v14 main_v15
  fn_part1 (F := F) main_arg4 main_arg5 main_arg6 main_arg7 main_arg8 main_arg9 main_arg10 main_arg11 main_v13 main_v16
-- ==== Kernel.lean ====
abbrev S131072x4 : Shape := ⟨2, ![131072, 4]⟩
abbrev S8x64 : Shape := ⟨2, ![8, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S4x64 : Shape := ⟨2, ![4, 64]⟩
abbrev S64x4 : Shape := ⟨2, ![64, 4]⟩
abbrev S1x64 : Shape := ⟨2, ![1, 64]⟩
abbrev S1x1 : Shape := ⟨2, ![1, 1]⟩
abbrev S131072x1 : Shape := ⟨2, ![131072, 1]⟩
abbrev S2048x4 : Shape := ⟨2, ![2048, 4]⟩
abbrev S2048x1 : Shape := ⟨2, ![2048, 1]⟩
abbrev S2048x64 : Shape := ⟨2, ![2048, 64]⟩
abbrev S_ : Shape := ⟨0, ![]⟩
abbrev S131072x4x4 : Shape := ⟨3, ![131072, 4, 4]⟩

abbrev nBuf : Space → Nat
  | .hbm => 26
  | .vmem => 23
  | .smem => 0
  | _ => 0

abbrev bufTy : (tb : Table) → Fin (tcTables nBuf tb) → BufTy
  | .hbm, ⟨0, _⟩ => ⟨S131072x4, .f32⟩
  | .hbm, ⟨1, _⟩ => ⟨S131072x4, .f32⟩
  | .hbm, ⟨2, _⟩ => ⟨S131072x4, .f32⟩
  | .hbm, ⟨3, _⟩ => ⟨S131072x4, .f32⟩
  | .hbm, ⟨4, _⟩ => ⟨S8x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x1, .f32⟩
  | .hbm, ⟨11, _⟩ => ⟨S1, .f32⟩
  | .hbm, ⟨12, _⟩ => ⟨S4x64, .f32⟩
  | .hbm, ⟨13, _⟩ => ⟨S4x64, .f32⟩
  | .hbm, ⟨14, _⟩ => ⟨S64x4, .f32⟩
  | .hbm, ⟨15, _⟩ => ⟨S64x64, .f32⟩
  | .hbm, ⟨16, _⟩ => ⟨S64x64, .f32⟩
  | .hbm, ⟨17, _⟩ => ⟨S1x64, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x1, .f32⟩
  | .hbm, ⟨22, _⟩ => ⟨S131072x1, .f32⟩
  | .hbm, ⟨23, _⟩ => ⟨S131072x4, .f32⟩
  | .hbm, ⟨24, _⟩ => ⟨S_, .f32⟩
  | .hbm, ⟨25, _⟩ => ⟨S131072x4x4, .f32⟩
  | .local _ .vmem, ⟨0, _⟩ => ⟨S2048x4, .f32⟩
  | .local _ .vmem, ⟨1, _⟩ => ⟨S2048x4, .f32⟩
  | .local _ .vmem, ⟨2, _⟩ => ⟨S2048x4, .f32⟩
  | .local _ .vmem, ⟨3, _⟩ => ⟨S2048x4, .f32⟩
  | .local _ .vmem, ⟨4, _⟩ => ⟨S2048x4, .f32⟩
  | .local _ .vmem, ⟨5, _⟩ => ⟨S2048x4, .f32⟩
  | .local _ .vmem, ⟨6, _⟩ => ⟨S4x64, .f32⟩
  | .local _ .vmem, ⟨7, _⟩ => ⟨S4x64, .f32⟩
  | .local _ .vmem, ⟨8, _⟩ => ⟨S1x64, .f32⟩
  | .local _ .vmem, ⟨9, _⟩ => ⟨S64x64, .f32⟩
  | .local _ .vmem, ⟨10, _⟩ => ⟨S64x64, .f32⟩
  | .local _ .vmem, ⟨11, _⟩ => ⟨S1x64, .f32⟩
  | .local _ .vmem, ⟨12, _⟩ => ⟨S64x64, .f32⟩
  | .local _ .vmem, ⟨13, _⟩ => ⟨S64x64, .f32⟩
  | .local _ .vmem, ⟨14, _⟩ => ⟨S1x64, .f32⟩
  | .local _ .vmem, ⟨15, _⟩ => ⟨S64x1, .f32⟩
  | .local _ .vmem, ⟨16, _⟩ => ⟨S1x64, .f32⟩
  | .local _ .vmem, ⟨17, _⟩ => ⟨S1x1, .f32⟩
  | .local _ .vmem, ⟨18, _⟩ => ⟨S64x4, .f32⟩
  | .local _ .vmem, ⟨19, _⟩ => ⟨S2048x1, .f32⟩
  | .local _ .vmem, ⟨20, _⟩ => ⟨S2048x1, .f32⟩
  | .local _ .vmem, ⟨21, _⟩ => ⟨S2048x4, .f32⟩
  | .local _ .vmem, ⟨22, _⟩ => ⟨S2048x4, .f32⟩
  | _, _ => ⟨S131072x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev main_cst : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S64x4 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2048x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S2048x4 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  slices_S8x64_S4x64_0_0 : S8x64.Slices ![0, 0] S4x64
  slices_S8x64_S4x64_4_0 : S8x64.Slices ![4, 0] S4x64
  transposes_S4x64_S64x4_1_0 : S4x64.Transposes [1, 0] S64x4
  transposes_S64x64_S64x64_1_0 : S64x64.Transposes [1, 0] S64x64
  transposes_S64x1_S1x64_1_0 : S64x1.Transposes [1, 0] S1x64
  shapeCasts_S64_S1x64 : S64.ShapeCasts S1x64
  shapeCasts_S1_S1x1 : S1.ShapeCasts S1x1
  inb_S2048x4_S2048x4_0_0 : ∀ a, (![0, 0] : Fin 2 → Nat) a + S2048x4.size a ≤ S2048x4.size a
  h_S2048x4 : 0 < S2048x4.numel
  inb_S4x64_S4x64_0_0 : ∀ a, (![0, 0] : Fin 2 → Nat) a + S4x64.size a ≤ S4x64.size a
  h_S4x64 : 0 < S4x64.numel
  shapeCasts_S4x64_S4x64 : S4x64.ShapeCasts S4x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x64_S64x64_0_0 : ∀ a, (![0, 0] : Fin 2 → Nat) a + S64x64.size a ≤ S64x64.size a
  h_S64x64 : 0 < S64x64.numel
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  natLt_1_32 : 1 < 32
  shapeCasts_S64x64_S64x64 : S64x64.ShapeCasts S64x64
  inb_S64x4_S64x4_0_0 : ∀ a, (![0, 0] : Fin 2 → Nat) a + S64x4.size a ≤ S64x4.size a
  h_S64x4 : 0 < S64x4.numel
  shapeCasts_S64x4_S64x4 : S64x4.ShapeCasts S64x4
  bcast_S_S131072x4x4 : S_.BroadcastsInDim S131072x4x4 (![] : Fin 0 → Fin S131072x4x4.rank)
  dot_S2048x4_S4x64_S2048x64_1_0_0_1_n_n_wf : DotDims.WF S2048x4 S4x64 S2048x64 [1] [0] [0] [1] [] []
  dot_S2048x64_S64x64_S2048x64_1_0_0_1_n_n_wf : DotDims.WF S2048x64 S64x64 S2048x64 [1] [0] [0] [1] [] []
  dot_S2048x64_S64x1_S2048x1_1_0_0_1_n_n_wf : DotDims.WF S2048x64 S64x1 S2048x1 [1] [0] [0] [1] [] []
  dot_S2048x64_S64x4_S2048x4_1_0_0_1_n_n_wf : DotDims.WF S2048x64 S64x4 S2048x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x4.size a ≤ S131072x4.size a
  hwx0_0 : ∀ i : grid0.Coords, EltTy.bits .f32 = 32 ∨ (Rect.block (s := S131072x4) S2048x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x4.size a ≤ S131072x4.size a
  hwx0_1 : ∀ i : grid0.Coords, EltTy.bits .f32 = 32 ∨ (Rect.block (s := S131072x4) S2048x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x4.size a ≤ S131072x4.size a
  hwx0_2 : ∀ i : grid0.Coords, EltTy.bits .f32 = 32 ∨ (Rect.block (s := S131072x4) S2048x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4x64.size a ≤ S4x64.size a
  hwx0_3 : ∀ i : grid0.Coords, EltTy.bits .f32 = 32 ∨ (Rect.block (s := S4x64) S4x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4x64.size a ≤ S4x64.size a
  hwx0_4 : ∀ i : grid0.Coords, EltTy.bits .f32 = 32 ∨ (Rect.block (s := S4x64) S4x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x1.size a ≤ S64x1.size a
  hwx0_12 : ∀ i : grid0.Coords, EltTy.bits .f32 = 32 ∨ (Rect.block (s := S64x1) S64x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S1x64.size a ≤ S1x64.size a
  hwx0_13 : ∀ i : grid0.Coords, EltTy.bits .f32 = 32 ∨ (Rect.block (s := S1x64) S1x64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1x1.size a ≤ S1x1.size a
  hwx0_14 : ∀ i : grid0.Coords, EltTy.bits .f32 = 32 ∨ (Rect.block (s := S1x1) S1x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S64x4.size a ≤ S64x4.size a
  hwx0_15 : ∀ i : grid0.Coords, EltTy.bits .f32 = 32 ∨ (Rect.block (s := S64x4) S64x4.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2048x1.size a ≤ S131072x1.size a
  hwx0_16 : ∀ i : grid0.Coords, EltTy.bits .f32 = 32 ∨ (Rect.block (s := S131072x1) S2048x1.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S2048x4.size a ≤ S131072x4.size a
  hwx0_17 : ∀ i : grid0.Coords, EltTy.bits .f32 = 32 ∨ (Rect.block (s := S131072x4) S2048x4.size (cc0_transform_17 i) (hinb0_17 i)).WholeWords (EltTy.packing .f32)

variable [Facts₀]

def dot_S2048x4_S4x64_S2048x64_1_0_0_1_n_n : DotDims S2048x4 S4x64 S2048x64 where
  lhsContracting := [1]
  rhsContracting := [0]
  lhsNonContracting := [0]
  rhsNonContracting := [1]
  lhsBatch := []
  rhsBatch := []
  wf := dot_S2048x4_S4x64_S2048x64_1_0_0_1_n_n_wf
def dot_S2048x64_S64x64_S2048x64_1_0_0_1_n_n : DotDims S2048x64 S64x64 S2048x64 where
  lhsContracting := [1]
  rhsContracting := [0]
  lhsNonContracting := [0]
  rhsNonContracting := [1]
  lhsBatch := []
  rhsBatch := []
  wf := dot_S2048x64_S64x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf
def dot_S2048x64_S64x4_S2048x4_1_0_0_1_n_n : DotDims S2048x64 S64x4 S2048x4 where
  lhsContracting := [1]
  rhsContracting := [0]
  lhsNonContracting := [0]
  rhsNonContracting := [1]
  lhsBatch := []
  rhsBatch := []
  wf := dot_S2048x64_S64x4_S2048x4_1_0_0_1_n_n_wf

abbrev win0_0 : Pipeline.Window sig grid0 :=
  Pipeline.Window.ofSpec (Memref.whole main_arg0) S2048x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S2048x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S4x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S4x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v4) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v8) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S64x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1x64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v9) S1x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v2) S64x4.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v10_0) S2048x1.size cc0_transform_16 reads0_16 true false 2 stage0_16 sem0_16
    hrank0 hreads0_16 hinb0_16 nbuf0_16 (Memref.isWhole_whole _) hwx0_16 hstage0_16

abbrev win0_17 : Pipeline.Window sig grid0 :=
  Pipeline.Window.ofSpec (Memref.whole main_v10_1) S2048x4.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S131072x4 : Shape := ⟨2, ![131072, 4]⟩
abbrev S8x64 : Shape := ⟨2, ![8, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S131072x8 : Shape := ⟨2, ![131072, 8]⟩
abbrev S131072x64 : Shape := ⟨2, ![131072, 64]⟩
abbrev S1x64 : Shape := ⟨2, ![1, 64]⟩
abbrev S_ : Shape := ⟨0, ![]⟩
abbrev S131072x1 : Shape := ⟨2, ![131072, 1]⟩
abbrev S1x1 : Shape := ⟨2, ![1, 1]⟩
abbrev S4x4 : Shape := ⟨2, ![4, 4]⟩
abbrev S4 : Shape := ⟨1, ![4]⟩
abbrev S4x8 : Shape := ⟨2, ![4, 8]⟩
abbrev S4x64 : Shape := ⟨2, ![4, 64]⟩
abbrev S131072x4x64 : Shape := ⟨3, ![131072, 4, 64]⟩
abbrev S131072x4x1 : Shape := ⟨3, ![131072, 4, 1]⟩
abbrev S131072 : Shape := ⟨1, ![131072]⟩
abbrev S131072x1x64 : Shape := ⟨3, ![131072, 1, 64]⟩
abbrev S131072x1x8 : Shape := ⟨3, ![131072, 1, 8]⟩
abbrev S131072x1x4 : Shape := ⟨3, ![131072, 1, 4]⟩
abbrev S131072x4x4 : Shape := ⟨3, ![131072, 4, 4]⟩

abbrev nBuf : Space → Nat
  | .hbm => 233
  | .vmem => 0
  | .smem => 0
  | _ => 0

abbrev hbmTy0_0 (i : Nat) : BufTy := match i % 128 with
  | 0 => ⟨S131072x4, .f32⟩
  | 1 => ⟨S131072x4, .f32⟩
  | 2 => ⟨S131072x4, .f32⟩
  | 3 => ⟨S131072x4, .f32⟩
  | 4 => ⟨S8x64, .f32⟩
  | 5 => ⟨S64, .f32⟩
  | 6 => ⟨S64x64, .f32⟩
  | 7 => ⟨S64, .f32⟩
  | 8 => ⟨S64x64, .f32⟩
  | 9 => ⟨S64, .f32⟩
  | 10 => ⟨S64x1, .f32⟩
  | 11 => ⟨S1, .f32⟩
  | 12 => ⟨S131072x8, .f32⟩
  | 13 => ⟨S131072x64, .f32⟩
  | 14 => ⟨S1x64, .f32⟩
  | 15 => ⟨S131072x64, .f32⟩
  | 16 => ⟨S131072x64, .f32⟩
  | 17 => ⟨S_, .f32⟩
  | 18 => ⟨S131072x64, .f32⟩
  | 19 => ⟨S131072x64, .f32⟩
  | 20 => ⟨S131072x64, .f32⟩
  | 21 => ⟨S1x64, .f32⟩
  | 22 => ⟨S131072x64, .f32⟩
  | 23 => ⟨S131072x64, .f32⟩
  | 24 => ⟨S_, .f32⟩
  | 25 => ⟨S131072x64, .f32⟩
  | 26 => ⟨S131072x64, .f32⟩
  | 27 => ⟨S131072x64, .f32⟩
  | 28 => ⟨S1x64, .f32⟩
  | 29 => ⟨S131072x64, .f32⟩
  | 30 => ⟨S131072x64, .f32⟩
  | 31 => ⟨S_, .f32⟩
  | 32 => ⟨S131072x64, .f32⟩
  | 33 => ⟨S131072x64, .f32⟩
  | 34 => ⟨S131072x1, .f32⟩
  | 35 => ⟨S1x1, .f32⟩
  | 36 => ⟨S131072x1, .f32⟩
  | 37 => ⟨S131072x1, .f32⟩
  | 38 => ⟨S131072x8, .f32⟩
  | 39 => ⟨S_, .f32⟩
  | 40 => ⟨S131072x4, .f32⟩
  | 41 => ⟨S131072x64, .f32⟩
  | 42 => ⟨S1x64, .f32⟩
  | 43 => ⟨S131072x64, .f32⟩
  | 44 => ⟨S131072x64, .f32⟩
  | 45 => ⟨S_, .f32⟩
  | 46 => ⟨S131072x64, .f32⟩
  | 47 => ⟨S131072x64, .f32⟩
  | 48 => ⟨S_, .f32⟩
  | 49 => ⟨S131072x64, .f32⟩
  | 50 => ⟨S131072x64, .i1⟩
  | 51 => ⟨S_, .f32⟩
  | 52 => ⟨S131072x64, .f32⟩
  | 53 => ⟨S131072x64, .f32⟩
  | 54 => ⟨S1x64, .f32⟩
  | 55 => ⟨S131072x64, .f32⟩
  | 56 => ⟨S131072x64, .f32⟩
  | 57 => ⟨S_, .f32⟩
  | 58 => ⟨S131072x64, .f32⟩
  | 59 => ⟨S131072x64, .f32⟩
  | 60 => ⟨S_, .f32⟩
  | 61 => ⟨S131072x64, .f32⟩
  | 62 => ⟨S131072x64, .i1⟩
  | 63 => ⟨S_, .f32⟩
  | 64 => ⟨S131072x64, .f32⟩
  | 65 => ⟨S131072x64, .f32⟩
  | 66 => ⟨S1x64, .f32⟩
  | 67 => ⟨S131072x64, .f32⟩
  | 68 => ⟨S131072x64, .f32⟩
  | 69 => ⟨S_, .f32⟩
  | 70 => ⟨S131072x64, .f32⟩
  | 71 => ⟨S131072x64, .f32⟩
  | 72 => ⟨S_, .f32⟩
  | 73 => ⟨S131072x64, .f32⟩
  | 74 => ⟨S131072x64, .i1⟩
  | 75 => ⟨S_, .f32⟩
  | 76 => ⟨S131072x64, .f32⟩
  | 77 => ⟨S131072x1, .f32⟩
  | 78 => ⟨S1x1, .f32⟩
  | 79 => ⟨S131072x1, .f32⟩
  | 80 => ⟨S131072x1, .f32⟩
  | 81 => ⟨S_, .f32⟩
  | 82 => ⟨S_, .f32⟩
  | 83 => ⟨S_, .f32⟩
  | 84 => ⟨S131072x1, .f32⟩
  | 85 => ⟨S131072x64, .f32⟩
  | 86 => ⟨S_, .f32⟩
  | 87 => ⟨S131072x64, .f32⟩
  | 88 => ⟨S131072x64, .f32⟩
  | 89 => ⟨S131072x64, .f32⟩
  | 90 => ⟨S_, .f32⟩
  | 91 => ⟨S131072x64, .f32⟩
  | 92 => ⟨S131072x64, .f32⟩
  | 93 => ⟨S131072x64, .f32⟩
  | 94 => ⟨S_, .f32⟩
  | 95 => ⟨S131072x64, .f32⟩
  | 96 => ⟨S131072x64, .f32⟩
  | 97 => ⟨S131072x8, .f32⟩
  | 98 => ⟨S131072x4, .f32⟩
  | 99 => ⟨S131072x4, .f32⟩
  | 100 => ⟨S4x4, .i32⟩
  | 101 => ⟨S4x4, .i32⟩
  | 102 => ⟨S_, .i32⟩
  | 103 => ⟨S4x4, .i32⟩
  | 104 => ⟨S4x4, .i32⟩
  | 105 => ⟨S4x4, .i1⟩
  | 106 => ⟨S4x4, .f32⟩
  | 107 => ⟨S4x4, .f32⟩
  | 108 => ⟨S4x4, .f32⟩
  | 109 => ⟨S131072x8, .f32⟩
  | 110 => ⟨S_, .f32⟩
  | 111 => ⟨S4, .f32⟩
  | 112 => ⟨S4x4, .f32⟩
  | 113 => ⟨S4x8, .f32⟩
  | 114 => ⟨S_, .f32⟩
  | 115 => ⟨S4, .f32⟩
  | 116 => ⟨S131072x64, .f32⟩
  | 117 => ⟨S4x64, .f32⟩
  | 118 => ⟨S1x64, .f32⟩
  | 119 => ⟨S131072x64, .f32⟩
  | 120 => ⟨S131072x64, .f32⟩
  | 121 => ⟨S_, .f32⟩
  | 122 => ⟨S131072x64, .f32⟩
  | 123 => ⟨S131072x64, .f32⟩
  | 124 => ⟨S_, .f32⟩
  | 125 => ⟨S131072x64, .f32⟩
  | 126 => ⟨S131072x64, .i1⟩
  | 127 => ⟨S_, .f32⟩
  | _ => ⟨S131072x4, .f32⟩

abbrev hbmTy0_1 (i : Nat) : BufTy := match i % 128 with
  | 0 => ⟨S64, .f32⟩
  | 1 => ⟨S131072x4x64, .i1⟩
  | 2 => ⟨S4x64, .f32⟩
  | 3 => ⟨S131072x4x64, .f32⟩
  | 4 => ⟨S131072x4x64, .f32⟩
  | 5 => ⟨S131072x4x64, .f32⟩
  | 6 => ⟨S_, .f32⟩
  | 7 => ⟨S131072x64, .f32⟩
  | 8 => ⟨S131072x64, .i1⟩
  | 9 => ⟨S_, .f32⟩
  | 10 => ⟨S64, .f32⟩
  | 11 => ⟨S131072x64, .f32⟩
  | 12 => ⟨S131072x4x64, .f32⟩
  | 13 => ⟨S1x64, .f32⟩
  | 14 => ⟨S131072x64, .f32⟩
  | 15 => ⟨S131072x64, .f32⟩
  | 16 => ⟨S_, .f32⟩
  | 17 => ⟨S131072x64, .f32⟩
  | 18 => ⟨S131072x64, .f32⟩
  | 19 => ⟨S_, .f32⟩
  | 20 => ⟨S131072x64, .f32⟩
  | 21 => ⟨S131072x64, .i1⟩
  | 22 => ⟨S_, .f32⟩
  | 23 => ⟨S64, .f32⟩
  | 24 => ⟨S131072x4x64, .i1⟩
  | 25 => ⟨S4x64, .f32⟩
  | 26 => ⟨S131072x4x64, .f32⟩
  | 27 => ⟨S131072x4x64, .f32⟩
  | 28 => ⟨S_, .f32⟩
  | 29 => ⟨S131072x64, .f32⟩
  | 30 => ⟨S131072x64, .i1⟩
  | 31 => ⟨S_, .f32⟩
  | 32 => ⟨S64, .f32⟩
  | 33 => ⟨S131072x64, .f32⟩
  | 34 => ⟨S131072x4x64, .f32⟩
  | 35 => ⟨S1x64, .f32⟩
  | 36 => ⟨S131072x64, .f32⟩
  | 37 => ⟨S131072x64, .f32⟩
  | 38 => ⟨S_, .f32⟩
  | 39 => ⟨S131072x64, .f32⟩
  | 40 => ⟨S131072x64, .f32⟩
  | 41 => ⟨S_, .f32⟩
  | 42 => ⟨S131072x64, .f32⟩
  | 43 => ⟨S131072x64, .i1⟩
  | 44 => ⟨S_, .f32⟩
  | 45 => ⟨S64, .f32⟩
  | 46 => ⟨S131072x4x64, .i1⟩
  | 47 => ⟨S4x64, .f32⟩
  | 48 => ⟨S131072x4x64, .f32⟩
  | 49 => ⟨S131072x4x64, .f32⟩
  | 50 => ⟨S_, .f32⟩
  | 51 => ⟨S131072x64, .f32⟩
  | 52 => ⟨S131072x64, .i1⟩
  | 53 => ⟨S_, .f32⟩
  | 54 => ⟨S64, .f32⟩
  | 55 => ⟨S131072x1, .f32⟩
  | 56 => ⟨S131072x4x1, .f32⟩
  | 57 => ⟨S1x1, .f32⟩
  | 58 => ⟨S131072x1, .f32⟩
  | 59 => ⟨S131072x1, .f32⟩
  | 60 => ⟨S131072, .f32⟩
  | 61 => ⟨S131072x4, .f32⟩
  | 62 => ⟨S1x1, .i32⟩
  | 63 => ⟨S1x1, .i32⟩
  | 64 => ⟨S_, .i32⟩
  | 65 => ⟨S1x1, .i32⟩
  | 66 => ⟨S1x1, .i32⟩
  | 67 => ⟨S1x1, .i1⟩
  | 68 => ⟨S1x1, .f32⟩
  | 69 => ⟨S1x1, .f32⟩
  | 70 => ⟨S1, .f32⟩
  | 71 => ⟨S1x1, .f32⟩
  | 72 => ⟨S1x64, .f32⟩
  | 73 => ⟨S_, .f32⟩
  | 74 => ⟨S64, .f32⟩
  | 75 => ⟨S131072x1x64, .i1⟩
  | 76 => ⟨S1x64, .f32⟩
  | 77 => ⟨S131072x1x64, .f32⟩
  | 78 => ⟨S131072x1x64, .f32⟩
  | 79 => ⟨S131072x1x64, .f32⟩
  | 80 => ⟨S131072x1x64, .f32⟩
  | 81 => ⟨S_, .f32⟩
  | 82 => ⟨S64, .f32⟩
  | 83 => ⟨S131072x1x64, .i1⟩
  | 84 => ⟨S1x64, .f32⟩
  | 85 => ⟨S131072x1x64, .f32⟩
  | 86 => ⟨S131072x1x64, .f32⟩
  | 87 => ⟨S131072x1x64, .f32⟩
  | 88 => ⟨S_, .f32⟩
  | 89 => ⟨S64, .f32⟩
  | 90 => ⟨S131072x1x64, .i1⟩
  | 91 => ⟨S1x64, .f32⟩
  | 92 => ⟨S131072x1x64, .f32⟩
  | 93 => ⟨S131072x1x64, .f32⟩
  | 94 => ⟨S131072x1x8, .f32⟩
  | 95 => ⟨S131072x1x4, .f32⟩
  | 96 => ⟨S131072x1x4, .f32⟩
  | 97 => ⟨S131072x1x4, .f32⟩
  | 98 => ⟨S131072x4, .f32⟩
  | 99 => ⟨S131072x4, .f32⟩
  | 100 => ⟨S_, .f32⟩
  | 101 => ⟨S4, .f32⟩
  | 102 => ⟨S4x4, .f32⟩
  | 103 => ⟨S4x4, .f32⟩
  | 104 => ⟨S131072x4x4, .f32⟩
  | _ => ⟨S131072x4, .f32⟩

abbrev hbmTy (i : Nat) : BufTy := match i / 128 with
  | 0 => hbmTy0_0 i
  | 1 => hbmTy0_1 i
  | _ => ⟨S131072x4, .f32⟩

abbrev bufTy : (tb : Table) → Fin (tcTables nBuf tb) → BufTy
  | .hbm, ⟨i, _⟩ => hbmTy i
  | _, _ => ⟨S131072x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call1_cst : Ref sig .tc := ⟨.hbm, 24, rfl⟩
abbrev main_call1_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call2_cst : Ref sig .tc := ⟨.hbm, 31, rfl⟩
abbrev main_call2_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_call3_cst : Ref sig .tc := ⟨.hbm, 45, rfl⟩
abbrev main_call3_v0 : Ref sig .tc := ⟨.hbm, 46, rfl⟩
abbrev main_v26 : Ref sig .tc := ⟨.hbm, 47, rfl⟩
abbrev main_cst_0 : Ref sig .tc := ⟨.hbm, 48, rfl⟩
abbrev main_v27 : Ref sig .tc := ⟨.hbm, 49, rfl⟩
abbrev main_v28 : Ref sig .tc := ⟨.hbm, 50, rfl⟩
abbrev main_cst_1 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_call4_cst : Ref sig .tc := ⟨.hbm, 57, rfl⟩
abbrev main_call4_v0 : Ref sig .tc := ⟨.hbm, 58, rfl⟩
abbrev main_v34 : Ref sig .tc := ⟨.hbm, 59, rfl⟩
abbrev main_cst_2 : Ref sig .tc := ⟨.hbm, 60, rfl⟩
abbrev main_v35 : Ref sig .tc := ⟨.hbm, 61, rfl⟩
abbrev main_v36 : Ref sig .tc := ⟨.hbm, 62, rfl⟩
abbrev main_cst_3 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_call5_cst : Ref sig .tc := ⟨.hbm, 69, rfl⟩
abbrev main_call5_v0 : Ref sig .tc := ⟨.hbm, 70, rfl⟩
abbrev main_v42 : Ref sig .tc := ⟨.hbm, 71, rfl⟩
abbrev main_cst_4 : Ref sig .tc := ⟨.hbm, 72, rfl⟩
abbrev main_v43 : Ref sig .tc := ⟨.hbm, 73, rfl⟩
abbrev main_v44 : Ref sig .tc := ⟨.hbm, 74, rfl⟩
abbrev main_cst_5 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_cst_6 : Ref sig .tc := ⟨.hbm, 81, rfl⟩
abbrev main_v50 : Ref sig .tc := ⟨.hbm, 82, rfl⟩
abbrev main_cst_7 : Ref sig .tc := ⟨.hbm, 83, rfl⟩
abbrev main_v51 : Ref sig .tc := ⟨.hbm, 84, rfl⟩
abbrev main_v52 : Ref sig .tc := ⟨.hbm, 85, rfl⟩
abbrev main_cst_8 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_cst_9 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_10 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_c : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_11 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_cst_12 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_call6_cst : Ref sig .tc := ⟨.hbm, 121, rfl⟩
abbrev main_call6_v0 : Ref sig .tc := ⟨.hbm, 122, rfl⟩
abbrev main_v82 : Ref sig .tc := ⟨.hbm, 123, rfl⟩
abbrev main_cst_13 : Ref sig .tc := ⟨.hbm, 124, rfl⟩
abbrev main_v83 : Ref sig .tc := ⟨.hbm, 125, rfl⟩
abbrev main_v84 : Ref sig .tc := ⟨.hbm, 126, rfl⟩
abbrev main_cst_14 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_cst_15 : Ref sig .tc := ⟨.hbm, 134, rfl⟩
abbrev main_v91 : Ref sig .tc := ⟨.hbm, 135, rfl⟩
abbrev main_v92 : Ref sig .tc := ⟨.hbm, 136, rfl⟩
abbrev main_cst_16 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_call7_cst : Ref sig .tc := ⟨.hbm, 144, rfl⟩
abbrev main_call7_v0 : Ref sig .tc := ⟨.hbm, 145, rfl⟩
abbrev main_v99 : Ref sig .tc := ⟨.hbm, 146, rfl⟩
abbrev main_cst_17 : Ref sig .tc := ⟨.hbm, 147, rfl⟩
abbrev main_v100 : Ref sig .tc := ⟨.hbm, 148, rfl⟩
abbrev main_v101 : Ref sig .tc := ⟨.hbm, 149, rfl⟩
abbrev main_cst_18 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_cst_19 : Ref sig .tc := ⟨.hbm, 156, rfl⟩
abbrev main_v107 : Ref sig .tc := ⟨.hbm, 157, rfl⟩
abbrev main_v108 : Ref sig .tc := ⟨.hbm, 158, rfl⟩
abbrev main_cst_20 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_call8_cst : Ref sig .tc := ⟨.hbm, 166, rfl⟩
abbrev main_call8_v0 : Ref sig .tc := ⟨.hbm, 167, rfl⟩
abbrev main_v115 : Ref sig .tc := ⟨.hbm, 168, rfl⟩
abbrev main_cst_21 : Ref sig .tc := ⟨.hbm, 169, rfl⟩
abbrev main_v116 : Ref sig .tc := ⟨.hbm, 170, rfl⟩
abbrev main_v117 : Ref sig .tc := ⟨.hbm, 171, rfl⟩
abbrev main_cst_22 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_23 : Ref sig .tc := ⟨.hbm, 178, rfl⟩
abbrev main_v123 : Ref sig .tc := ⟨.hbm, 179, rfl⟩
abbrev main_v124 : Ref sig .tc := ⟨.hbm, 180, rfl⟩
abbrev main_cst_24 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_v134 : Ref sig .tc := ⟨.hbm, 191, rfl⟩
abbrev main_c_25 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_v139 : Ref sig .tc := ⟨.hbm, 197, rfl⟩
abbrev main_v140 : Ref sig .tc := ⟨.hbm, 198, rfl⟩
abbrev main_v141 : Ref sig .tc := ⟨.hbm, 199, rfl⟩
abbrev main_v142 : Ref sig .tc := ⟨.hbm, 200, rfl⟩
abbrev main_cst_26 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_cst_27 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_cst_28 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_v166 : Ref sig .tc := ⟨.hbm, 227, rfl⟩
abbrev main_cst_29 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩

abbrev nD : Nat := 1
abbrev τ : Topo := Topo.v7x

variable {F : FTy → Type} [FloatOps F]

class Facts₀ : Prop where
  concatenates_S131072x4_S131072x4_S131072x8_d1 : Shape.Concatenates [S131072x4, S131072x4] S131072x8 1
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  bcast_S_S131072x4 : S_.BroadcastsInDim S131072x4 (![] : Fin 0 → Fin S131072x4.rank)
  reducesTo_S131072x1_S_d0_1 : S131072x1.ReducesTo [0, 1] S_
  h_S_ : 0 < S_.numel
  bcast_S_S131072x1 : S_.BroadcastsInDim S131072x1 (![] : Fin 0 → Fin S131072x1.rank)
  slices_S131072x8_S131072x4_0_0 : S131072x8.Slices ![0, 0] S131072x4
  slices_S131072x8_S131072x4_0_4 : S131072x8.Slices ![0, 4] S131072x4
  bcast_S_S4x4 : S_.BroadcastsInDim S4x4 (![] : Fin 0 → Fin S4x4.rank)
  slices_S4x4_S4x4_0_0 : S4x4.Slices ![0, 0] S4x4
  bcast_S_S4 : S_.BroadcastsInDim S4 (![] : Fin 0 → Fin S4.rank)
  bcast_S4_S4x4_1 : S4.BroadcastsInDim S4x4 (![1] : Fin 1 → Fin S4x4.rank)
  concatenates_S4x4_S4x4_S4x8_d1 : Shape.Concatenates [S4x4, S4x4] S4x8 1
  bcast_S_S64 : S_.BroadcastsInDim S64 (![] : Fin 0 → Fin S64.rank)
  bcast_S131072x64_S131072x4x64_0_2 : S131072x64.BroadcastsInDim S131072x4x64 (![0, 2] : Fin 2 → Fin S131072x4x64.rank)
  bcast_S64_S4x64_1 : S64.BroadcastsInDim S4x64 (![1] : Fin 1 → Fin S4x64.rank)
  bcast_S4x64_S131072x4x64_1_2 : S4x64.BroadcastsInDim S131072x4x64 (![1, 2] : Fin 2 → Fin S131072x4x64.rank)
  shapeCasts_S131072x1_S131072 : S131072x1.ShapeCasts S131072
  shapeCasts_S131072x4x1_S131072x4 : S131072x4x1.ShapeCasts S131072x4
  bcast_S_S1x1 : S_.BroadcastsInDim S1x1 (![] : Fin 0 → Fin S1x1.rank)
  slices_S1x1_S1x1_0_0 : S1x1.Slices ![0, 0] S1x1
  shapeCasts_S1x1_S1 : S1x1.ShapeCasts S1
  bcast_S1_S1x1_0 : S1.BroadcastsInDim S1x1 (![0] : Fin 1 → Fin S1x1.rank)
  bcast_S131072x64_S131072x1x64_0_2 : S131072x64.BroadcastsInDim S131072x1x64 (![0, 2] : Fin 2 → Fin S131072x1x64.rank)
  bcast_S1x64_S131072x1x64_1_2 : S1x64.BroadcastsInDim S131072x1x64 (![1, 2] : Fin 2 → Fin S131072x1x64.rank)
  slices_S131072x1x8_S131072x1x4_0_0_0 : S131072x1x8.Slices ![0, 0, 0] S131072x1x4
  slices_S131072x1x8_S131072x1x4_0_0_4 : S131072x1x8.Slices ![0, 0, 4] S131072x1x4
  slices_S131072x1x4_S131072x1x4_0_0_0 : S131072x1x4.Slices ![0, 0, 0] S131072x1x4
  shapeCasts_S131072x1x4_S131072x4 : S131072x1x4.ShapeCasts S131072x4
  bcast_S4_S4x4_0 : S4.BroadcastsInDim S4x4 (![0] : Fin 1 → Fin S4x4.rank)
  bcast_S4x4_S131072x4x4_1_2 : S4x4.BroadcastsInDim S131072x4x4 (![1, 2] : Fin 2 → Fin S131072x4x4.rank)
  dot_S131072x8_S8x64_S131072x64_1_0_0_1_n_n_wf : DotDims.WF S131072x8 S8x64 S131072x64 [1] [0] [0] [1] [] []
  dot_S131072x64_S64x64_S131072x64_1_0_0_1_n_n_wf : DotDims.WF S131072x64 S64x64 S131072x64 [1] [0] [0] [1] [] []
  dot_S131072x64_S64x1_S131072x1_1_0_0_1_n_n_wf : DotDims.WF S131072x64 S64x1 S131072x1 [1] [0] [0] [1] [] []
  dot_S131072x1_S64x1_S131072x64_1_1_0_0_n_n_wf : DotDims.WF S131072x1 S64x1 S131072x64 [1] [1] [0] [0] [] []
  dot_S131072x64_S64x64_S131072x64_1_1_0_0_n_n_wf : DotDims.WF S131072x64 S64x64 S131072x64 [1] [1] [0] [0] [] []
  dot_S131072x64_S8x64_S131072x8_1_1_0_0_n_n_wf : DotDims.WF S131072x64 S8x64 S131072x8 [1] [1] [0] [0] [] []
  dot_S4x8_S8x64_S4x64_1_0_0_1_n_n_wf : DotDims.WF S4x8 S8x64 S4x64 [1] [0] [0] [1] [] []
  dot_S131072x4x64_S64x64_S131072x4x64_2_0_01_1_n_n_wf : DotDims.WF S131072x4x64 S64x64 S131072x4x64 [2] [0] [0, 1] [1] [] []
  dot_S131072x4x64_S64x1_S131072x4x1_2_0_01_1_n_n_wf : DotDims.WF S131072x4x64 S64x1 S131072x4x1 [2] [0] [0, 1] [1] [] []
  dot_S1x1_S64x1_S1x64_1_1_0_0_n_n_wf : DotDims.WF S1x1 S64x1 S1x64 [1] [1] [0] [0] [] []
  dot_S131072x1x64_S64x64_S131072x1x64_2_1_01_0_n_n_wf : DotDims.WF S131072x1x64 S64x64 S131072x1x64 [2] [1] [0, 1] [0] [] []
  dot_S131072x1x64_S8x64_S131072x1x8_2_1_01_0_n_n_wf : DotDims.WF S131072x1x64 S8x64 S131072x1x8 [2] [1] [0, 1] [0] [] []

variable [Facts₀]

def dot_S131072x8_S8x64_S131072x64_1_0_0_1_n_n : DotDims S131072x8 S8x64 S131072x64 where
  lhsContracting := [1]
  rhsContracting := [0]
  lhsNonContracting := [0]
  rhsNonContracting := [1]
  lhsBatch := []
  rhsBatch := []
  wf := dot_S131072x8_S8x64_S131072x64_1_0_0_1_n_n_wf
def dot_S131072x64_S64x64_S131072x64_1_0_0_1_n_n : DotDims S131072x64 S64x64 S131072x64 where
  lhsContracting := [1]
  rhsContracting := [0]
  lhsNonContracting := [0]
  rhsNonContracting := [1]
  lhsBatch := []
  rhsBatch := []
  wf := dot_S131072x64_S64x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf
def dot_S131072x1_S64x1_S131072x64_1_1_0_0_n_n : DotDims S131072x1 S64x1 S131072x64 where
  lhsContracting := [1]
  rhsContracting := [1]
  lhsNonContracting := [0]
  rhsNonContracting := [0]
  lhsBatch := []
  rhsBatch := []
  wf := dot_S131072x1_S64x1_S131072x64_1_1_0_0_n_n_wf
def dot_S131072x64_S64x64_S131072x64_1_1_0_0_n_n : DotDims S131072x64 S64x64 S131072x64 where
  lhsContracting := [1]
  rhsContracting := [1]
  lhsNonContracting := [0]
  rhsNonContracting := [0]
  lhsBatch := []
  rhsBatch := []
  wf := dot_S131072x64_S64x64_S131072x64_1_1_0_0_n_n_wf
def dot_S131072x64_S8x64_S131072x8_1_1_0_0_n_n : DotDims S131072x64 S8x64 S131072x8 where
  lhsContracting := [1]
  rhsContracting := [1]
  lhsNonContracting := [0]
  rhsNonContracting := [0]
  lhsBatch := []
  rhsBatch := []
  wf := dot_S131072x64_S8x64_S131072x8_1_1_0_0_n_n_wf
def dot_S4x8_S8x64_S4x64_1_0_0_1_n_n : DotDims S4x8 S8x64 S4x64 where
  lhsContracting := [1]
  rhsContracting := [0]
  lhsNonContracting := [0]
  rhsNonContracting := [1]
  lhsBatch := []
  rhsBatch := []
  wf := dot_S4x8_S8x64_S4x64_1_0_0_1_n_n_wf
def dot_S131072x4x64_S64x64_S131072x4x64_2_0_01_1_n_n : DotDims S131072x4x64 S64x64 S131072x4x64 where
  lhsContracting := [2]
  rhsContracting := [0]
  lhsNonContracting := [0, 1]
  rhsNonContracting := [1]
  lhsBatch := []
  rhsBatch := []
  wf := dot_S131072x4x64_S64x64_S131072x4x64_2_0_01_1_n_n_wf
def dot_S131072x4x64_S64x1_S131072x4x1_2_0_01_1_n_n : DotDims S131072x4x64 S64x1 S131072x4x1 where
  lhsContracting := [2]
  rhsContracting := [0]
  lhsNonContracting := [0, 1]
  rhsNonContracting := [1]
  lhsBatch := []
  rhsBatch := []
  wf := dot_S131072x4x64_S64x1_S131072x4x1_2_0_01_1_n_n_wf
def dot_S1x1_S64x1_S1x64_1_1_0_0_n_n : DotDims S1x1 S64x1 S1x64 where
  lhsContracting := [1]
  rhsContracting := [1]
  lhsNonContracting := [0]
  rhsNonContracting := [0]
  lhsBatch := []
  rhsBatch := []
  wf := dot_S1x1_S64x1_S1x64_1_1_0_0_n_n_wf
def dot_S131072x1x64_S64x64_S131072x1x64_2_1_01_0_n_n : DotDims S131072x1x64 S64x64 S131072x1x64 where
  lhsContracting := [2]
  rhsContracting := [1]
  lhsNonContracting := [0, 1]
  rhsNonContracting := [0]
  lhsBatch := []
  rhsBatch := []
  wf := dot_S131072x1x64_S64x64_S131072x1x64_2_1_01_0_n_n_wf
def dot_S131072x1x64_S8x64_S131072x1x8_2_1_01_0_n_n : DotDims S131072x1x64 S8x64 S131072x1x8 where
  lhsContracting := [2]
  rhsContracting := [1]
  lhsNonContracting := [0, 1]
  rhsNonContracting := [0]
  lhsBatch := []
  rhsBatch := []
  wf := dot_S131072x1x64_S8x64_S131072x1x8_2_1_01_0_n_n_wf

class Facts : Prop extends Facts₀ where

variable [Facts]
-- ==== Proof.KerBlocks.lean ====
/-
  THE KERNEL'S WINDOWS, READ: WHICH ENTRIES OF THE ARGUMENT ARRAYS EACH BLOCK HOLDS.

  The batch is cut into 64 blocks of 2048 rows: at grid point t the three input windows hold rows 2048 t … 2048 t + 2047
  of their arrays, and the two output windows write back the same rows of theirs. The thirteen weight windows hold their
  whole arrays at every point. Those arrays are prepared from the arguments before the launch: the first layer's table
  is cut in its first four rows and its last four, each bias [n] is laid out as a table [1, n], and the tables the
  backward pass multiplies by are transposed. Each lemma below names, for one window, the argument's entry a block's
  entry is.
-/
import proofs.«180682_j15178414424664_1_alg».proof.Proof.Gen.KernelIdeal.Frame
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen

variable {F : FTy → Type} [FloatOps F]
variable (m : (ℓ : Loc nD τ sig) → Buf (Elt F) ℓ)

/-! ## The index maps, decided over the 64 grid points -/

/-- The row windows' block index is the grid point along the rows and zero along the columns. -/
theorem idx_rows : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_16.index t (0 : Fin 2) = t.val ∧ win0_16.index t (1 : Fin 2) = 0
    ∧ win0_17.index t (0 : Fin 2) = t.val ∧ win0_17.index t (1 : Fin 2) = 0 :=
  (by decide +kernel : ∀ t : Fin grid0.N, _)

/-- The weight windows' block index is zero on both axes at every point. -/
theorem idx_whole : ∀ t : Fin cfg0.N, (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

theorem tlt (t : Fin cfg0.N) : t.val < 64 := lt_of_lt_of_eq t.isLt N_0

/-- Row r of block t, among the 131072 rows of the batch. -/
abbrev rowOf (t : Fin cfg0.N) (r : Fin 2048) : Fin 131072 := ⟨2048 * t.val + r.val, by have := tlt t; omega⟩

/-! ## The arrays the launch prepares, as operations of the arguments -/

theorem V_v0 (c : Dev nD) : (V m c main_v0 : S4x64.Idx → Elt F .f32)
    = extractStridedSlice S4x64 ![0, 0] (m ((c : Thread nD τ).loc main_arg4) : S8x64.Idx → Elt F .f32) slices_S8x64_S4x64_0_0 := by
  show StableHlo.after hostOps0 (fun b => m (c, b)) (Proc.devRef .tc main_v0) = _
  after_results

theorem V_v1 (c : Dev nD) : (V m c main_v1 : S4x64.Idx → Elt F .f32)
    = extractStridedSlice S4x64 ![4, 0] (m ((c : Thread nD τ).loc main_arg4) : S8x64.Idx → Elt F .f32) slices_S8x64_S4x64_4_0 := by
  show StableHlo.after hostOps0 (fun b => m (c, b)) (Proc.devRef .tc main_v1) = _
  after_results

theorem V_v2 (c : Dev nD) : (V m c main_v2 : S64x4.Idx → Elt F .f32)
    = transpose S64x4 [1, 0] (extractStridedSlice S4x64 ![0, 0] (m ((c : Thread nD τ).loc main_arg4) : S8x64.Idx → Elt F .f32) slices_S8x64_S4x64_0_0) transposes_S4x64_S64x4_1_0 := by
  show StableHlo.after hostOps0 (fun b => m (c, b)) (Proc.devRef .tc main_v2) = _
  after_results

theorem V_v3 (c : Dev nD) : (V m c main_v3 : S64x64.Idx → Elt F .f32)
    = transpose S64x64 [1, 0] (m ((c : Thread nD τ).loc main_arg6) : S64x64.Idx → Elt F .f32) transposes_S64x64_S64x64_1_0 := by
  show StableHlo.after hostOps0 (fun b => m (c, b)) (Proc.devRef .tc main_v3) = _
  after_results

theorem V_v4 (c : Dev nD) : (V m c main_v4 : S64x64.Idx → Elt F .f32)
    = transpose S64x64 [1, 0] (m ((c : Thread nD τ).loc main_arg8) : S64x64.Idx → Elt F .f32) transposes_S64x64_S64x64_1_0 := by
  show StableHlo.after hostOps0 (fun b => m (c, b)) (Proc.devRef .tc main_v4) = _
  after_results

theorem V_v5 (c : Dev nD) : (V m c main_v5 : S1x64.Idx → Elt F .f32)
    = transpose S1x64 [1, 0] (m ((c : Thread nD τ).loc main_arg10) : S64x1.Idx → Elt F .f32) transposes_S64x1_S1x64_1_0 := by
  show StableHlo.after hostOps0 (fun b => m (c, b)) (Proc.devRef .tc main_v5) = _
  after_results

theorem V_v6 (c : Dev nD) : (V m c main_v6 : S1x64.Idx → Elt F .f32)
    = shapeCast S1x64 (m ((c : Thread nD τ).loc main_arg5) : S64.Idx → Elt F .f32) shapeCasts_S64_S1x64 := by
  show StableHlo.after hostOps0 (fun b => m (c, b)) (Proc.devRef .tc main_v6) = _
  after_results
  rfl

theorem V_v7 (c : Dev nD) : (V m c main_v7 : S1x64.Idx → Elt F .f32)
    = shapeCast S1x64 (m ((c : Thread nD τ).loc main_arg7) : S64.Idx → Elt F .f32) shapeCasts_S64_S1x64 := by
  show StableHlo.after hostOps0 (fun b => m (c, b)) (Proc.devRef .tc main_v7) = _
  after_results
  rfl

theorem V_v8 (c : Dev nD) : (V m c main_v8 : S1x64.Idx → Elt F .f32)
    = shapeCast S1x64 (m ((c : Thread nD τ).loc main_arg9) : S64.Idx → Elt F .f32) shapeCasts_S64_S1x64 := by
  show StableHlo.after hostOps0 (fun b => m (c, b)) (Proc.devRef .tc main_v8) = _
  after_results
  rfl

theorem V_v9 (c : Dev nD) : (V m c main_v9 : S1x1.Idx → Elt F .f32)
    = shapeCast S1x1 (m ((c : Thread nD τ).loc main_arg11) : S1.Idx → Elt F .f32) shapeCasts_S1_S1x1 := by
  show StableHlo.after hostOps0 (fun b => m (c, b)) (Proc.devRef .tc main_v9) = _
  after_results
  rfl

/-! ## The row windows -/

/-- Window 0's block at point t holds rows 2048 t … of its array. -/
theorem blk_x1 (c : Dev nD) (t : Fin cfg0.N) (r : Fin 2048) (k : Fin 4) :
    (iblk m c 0 t : Vec F S2048x4 .f32) (ix2 r k)
      = (m ((c : Thread nD τ).loc main_arg0) : S131072x4.Idx → Elt F .f32) (ix2 (rowOf t r) k) := by
  obtain ⟨e0, e1, e2, e3, e4, e5, -⟩ := idx_rows t
  unfold iblk
  rw [View.read_apply]
  show V m c main_arg0 _ = _
  rw [V_main_arg0]
  congr 1
  funext a
  apply Fin.ext
  match a with
  | ⟨0, _⟩ => show win0_0.index t 0 * 2048 + 1 * r.val = 2048 * t.val + r.val; rw [e0]; omega
  | ⟨1, _⟩ => show win0_0.index t 1 * 4 + 1 * k.val = k.val; rw [e1]; omega

/-- Window 1's block at point t holds rows 2048 t … of its array. -/
theorem blk_x2 (c : Dev nD) (t : Fin cfg0.N) (r : Fin 2048) (k : Fin 4) :
    (iblk m c 1 t : Vec F S2048x4 .f32) (ix2 r k)
      = (m ((c : Thread nD τ).loc main_arg1) : S131072x4.Idx → Elt F .f32) (ix2 (rowOf t r) k) := by
  obtain ⟨e0, e1, e2, e3, e4, e5, -⟩ := idx_rows t
  unfold iblk
  rw [View.read_apply]
  show V m c main_arg1 _ = _
  rw [V_main_arg1]
  congr 1
  funext a
  apply Fin.ext
  match a with
  | ⟨0, _⟩ => show win0_1.index t 0 * 2048 + 1 * r.val = 2048 * t.val + r.val; rw [e2]; omega
  | ⟨1, _⟩ => show win0_1.index t 1 * 4 + 1 * k.val = k.val; rw [e3]; omega

/-- Window 2's block at point t holds rows 2048 t … of its array. -/
theorem blk_t (c : Dev nD) (t : Fin cfg0.N) (r : Fin 2048) (k : Fin 4) :
    (iblk m c 2 t : Vec F S2048x4 .f32) (ix2 r k)
      = (m ((c : Thread nD τ).loc main_arg3) : S131072x4.Idx → Elt F .f32) (ix2 (rowOf t r) k) := by
  obtain ⟨e0, e1, e2, e3, e4, e5, -⟩ := idx_rows t
  unfold iblk
  rw [View.read_apply]
  show V m c main_arg3 _ = _
  rw [V_main_arg3]
  congr 1
  funext a
  apply Fin.ext
  match a with
  | ⟨0, _⟩ => show win0_2.index t 0 * 2048 + 1 * r.val = 2048 * t.val + r.val; rw [e4]; omega
  | ⟨1, _⟩ => show win0_2.index t 1 * 4 + 1 * k.val = k.val; rw [e5]; omega

/-! ## The weight windows: whole arrays -/

/-- Window 3's block is its whole array at every point. -/
theorem whole_3 (c : Dev nD) (t : Fin cfg0.N) (a : Fin 4) (b : Fin 64) :
    (iblk m c 3 t : Vec F S4x64 .f32) (ix2 a b) = (V m c main_v0 : S4x64.Idx → Elt F .f32) (ix2 a b) := by
  have e := (idx_whole t).1
  unfold iblk
  rw [View.read_apply]
  show V m c main_v0 _ = _
  congr 1
  funext ax
  apply Fin.ext
  match ax with
  | ⟨0, _⟩ => show win0_3.index t 0 * 4 + 1 * a.val = a.val; rw [e.1]; omega
  | ⟨1, _⟩ => show win0_3.index t 1 * 64 + 1 * b.val = b.val; rw [e.2]; omega

/-- Window 4's block is its whole array at every point. -/
theorem whole_4 (c : Dev nD) (t : Fin cfg0.N) (a : Fin 4) (b : Fin 64) :
    (iblk m c 4 t : Vec F S4x64 .f32) (ix2 a b) = (V m c main_v1 : S4x64.Idx → Elt F .f32) (ix2 a b) := by
  have e := (idx_whole t).2.1
  unfold iblk
  rw [View.read_apply]
  show V m c main_v1 _ = _
  congr 1
  funext ax
  apply Fin.ext
  match ax with
  | ⟨0, _⟩ => show win0_4.index t 0 * 4 + 1 * a.val = a.val; rw [e.1]; omega
  | ⟨1, _⟩ => show win0_4.index t 1 * 64 + 1 * b.val = b.val; rw [e.2]; omega

/-- Window 5's block is its whole array at every point. -/
theorem whole_5 (c : Dev nD) (t : Fin cfg0.N) (a : Fin 1) (b : Fin 64) :
    (iblk m c 5 t : Vec F S1x64 .f32) (ix2 a b) = (V m c main_v6 : S1x64.Idx → Elt F .f32) (ix2 a b) := by
  have e := (idx_whole t).2.2.1
  unfold iblk
  rw [View.read_apply]
  show V m c main_v6 _ = _
  congr 1
  funext ax
  apply Fin.ext
  match ax with
  | ⟨0, _⟩ => show win0_5.index t 0 * 1 + 1 * a.val = a.val; rw [e.1]; omega
  | ⟨1, _⟩ => show win0_5.index t 1 * 64 + 1 * b.val = b.val; rw [e.2]; omega

/-- Window 6's block is its whole array at every point. -/
theorem whole_6 (c : Dev nD) (t : Fin cfg0.N) (a : Fin 64) (b : Fin 64) :
    (iblk m c 6 t : Vec F S64x64 .f32) (ix2 a b) = (V m c main_arg6 : S64x64.Idx → Elt F .f32) (ix2 a b) := by
  have e := (idx_whole t).2.2.2.1
  unfold iblk
  rw [View.read_apply]
  show V m c main_arg6 _ = _
  congr 1
  funext ax
  apply Fin.ext
  match ax with
  | ⟨0, _⟩ => show win0_6.index t 0 * 64 + 1 * a.val = a.val; rw [e.1]; omega
  | ⟨1, _⟩ => show win0_6.index t 1 * 64 + 1 * b.val = b.val; rw [e.2]; omega

/-- Window 7's block is its whole array at every point. -/
theorem whole_7 (c : Dev nD) (t : Fin cfg0.N) (a : Fin 64) (b : Fin 64) :
    (iblk m c 7 t : Vec F S64x64 .f32) (ix2 a b) = (V m c main_v3 : S64x64.Idx → Elt F .f32) (ix2 a b) := by
  have e := (idx_whole t).2.2.2.2.1
  unfold iblk
  rw [View.read_apply]
  show V m c main_v3 _ = _
  congr 1
  funext ax
  apply Fin.ext
  match ax with
  | ⟨0, _⟩ => show win0_7.index t 0 * 64 + 1 * a.val = a.val; rw [e.1]; omega
  | ⟨1, _⟩ => show win0_7.index t 1 * 64 + 1 * b.val = b.val; rw [e.2]; omega

/-- Window 8's block is its whole array at every point. -/
theorem whole_8 (c : Dev nD) (t : Fin cfg0.N) (a : Fin 1) (b : Fin 64) :
    (iblk m c 8 t : Vec F S1x64 .f32) (ix2 a b) = (V m c main_v7 : S1x64.Idx → Elt F .f32) (ix2 a b) := by
  have e := (idx_whole t).2.2.2.2.2.1
  unfold iblk
  rw [View.read_apply]
  show V m c main_v7 _ = _
  congr 1
  funext ax
  apply Fin.ext
  match ax with
  | ⟨0, _⟩ => show win0_8.index t 0 * 1 + 1 * a.val = a.val; rw [e.1]; omega
  | ⟨1, _⟩ => show win0_8.index t 1 * 64 + 1 * b.val = b.val; rw [e.2]; omega

/-- Window 9's block is its whole array at every point. -/
theorem whole_9 (c : Dev nD) (t : Fin cfg0.N) (a : Fin 64) (b : Fin 64) :
    (iblk m c 9 t : Vec F S64x64 .f32) (ix2 a b) = (V m c main_arg8 : S64x64.Idx → Elt F .f32) (ix2 a b) := by
  have e := (idx_whole t).2.2.2.2.2.2.1
  unfold iblk
  rw [View.read_apply]
  show V m c main_arg8 _ = _
  congr 1
  funext ax
  apply Fin.ext
  match ax with
  | ⟨0, _⟩ => show win0_9.index t 0 * 64 + 1 * a.val = a.val; rw [e.1]; omega
  | ⟨1, _⟩ => show win0_9.index t 1 * 64 + 1 * b.val = b.val; rw [e.2]; omega

/-- Window 10's block is its whole array at every point. -/
theorem whole_10 (c : Dev nD) (t : Fin cfg0.N) (a : Fin 64) (b : Fin 64) :
    (iblk m c 10 t : Vec F S64x64 .f32) (ix2 a b) = (V m c main_v4 : S64x64.Idx → Elt F .f32) (ix2 a b) := by
  have e := (idx_whole t).2.2.2.2.2.2.2.1
  unfold iblk
  rw [View.read_apply]
  show V m c main_v4 _ = _
  congr 1
  funext ax
  apply Fin.ext
  match ax with
  | ⟨0, _⟩ => show win0_10.index t 0 * 64 + 1 * a.val = a.val; rw [e.1]; omega
  | ⟨1, _⟩ => show win0_10.index t 1 * 64 + 1 * b.val = b.val; rw [e.2]; omega

/-- Window 11's block is its whole array at every point. -/
theorem whole_11 (c : Dev nD) (t : Fin cfg0.N) (a : Fin 1) (b : Fin 64) :
    (iblk m c 11 t : Vec F S1x64 .f32) (ix2 a b) = (V m c main_v8 : S1x64.Idx → Elt F .f32) (ix2 a b) := by
  have e := (idx_whole t).2.2.2.2.2.2.2.2.1
  unfold iblk
  rw [View.read_apply]
  show V m c main_v8 _ = _
  congr 1
  funext ax
  apply Fin.ext
  match ax with
  | ⟨0, _⟩ => show win0_11.index t 0 * 1 + 1 * a.val = a.val; rw [e.1]; omega
  | ⟨1, _⟩ => show win0_11.index t 1 * 64 + 1 * b.val = b.val; rw [e.2]; omega

/-- Window 12's block is its whole array at every point. -/
theorem whole_12 (c : Dev nD) (t : Fin cfg0.N) (a : Fin 64) (b : Fin 1) :
    (iblk m c 12 t : Vec F S64x1 .f32) (ix2 a b) = (V m c main_arg10 : S64x1.Idx → Elt F .f32) (ix2 a b) := by
  have e := (idx_whole t).2.2.2.2.2.2.2.2.2.1
  unfold iblk
  rw [View.read_apply]
  show V m c main_arg10 _ = _
  congr 1
  funext ax
  apply Fin.ext
  match ax with
  | ⟨0, _⟩ => show win0_12.index t 0 * 64 + 1 * a.val = a.val; rw [e.1]; omega
  | ⟨1, _⟩ => show win0_12.index t 1 * 1 + 1 * b.val = b.val; rw [e.2]; omega

/-- Window 13's block is its whole array at every point. -/
theorem whole_13 (c : Dev nD) (t : Fin cfg0.N) (a : Fin 1) (b : Fin 64) :
    (iblk m c 13 t : Vec F S1x64 .f32) (ix2 a b) = (V m c main_v5 : S1x64.Idx → Elt F .f32) (ix2 a b) := by
  have e := (idx_whole t).2.2.2.2.2.2.2.2.2.2.1
  unfold iblk
  rw [View.read_apply]
  show V m c main_v5 _ = _
  congr 1
  funext ax
  apply Fin.ext
  match ax with
  | ⟨0, _⟩ => show win0_13.index t 0 * 1 + 1 * a.val = a.val; rw [e.1]; omega
  | ⟨1, _⟩ => show win0_13.index t 1 * 64 + 1 * b.val = b.val; rw [e.2]; omega

/-- Window 14's block is its whole array at every point. -/
theorem whole_14 (c : Dev nD) (t : Fin cfg0.N) (a : Fin 1) (b : Fin 1) :
    (iblk m c 14 t : Vec F S1x1 .f32) (ix2 a b) = (V m c main_v9 : S1x1.Idx → Elt F .f32) (ix2 a b) := by
  have e := (idx_whole t).2.2.2.2.2.2.2.2.2.2.2.1
  unfold iblk
  rw [View.read_apply]
  show V m c main_v9 _ = _
  congr 1
  funext ax
  apply Fin.ext
  match ax with
  | ⟨0, _⟩ => show win0_14.index t 0 * 1 + 1 * a.val = a.val; rw [e.1]; omega
  | ⟨1, _⟩ => show win0_14.index t 1 * 1 + 1 * b.val = b.val; rw [e.2]; omega

/-- Window 15's block is its whole array at every point. -/
theorem whole_15 (c : Dev nD) (t : Fin cfg0.N) (a : Fin 64) (b : Fin 4) :
    (iblk m c 15 t : Vec F S64x4 .f32) (ix2 a b) = (V m c main_v2 : S64x4.Idx → Elt F .f32) (ix2 a b) := by
  have e := (idx_whole t).2.2.2.2.2.2.2.2.2.2.2.2
  unfold iblk
  rw [View.read_apply]
  show V m c main_v2 _ = _
  congr 1
  funext ax
  apply Fin.ext
  match ax with
  | ⟨0, _⟩ => show win0_15.index t 0 * 64 + 1 * a.val = a.val; rw [e.1]; omega
  | ⟨1, _⟩ => show win0_15.index t 1 * 4 + 1 * b.val = b.val; rw [e.2]; omega

end Cert.KernelIdeal.Blocks

end
-- ==== Proof.Net.lean ====
/-
  A THREE-HIDDEN-LAYER RELU NETWORK, ROW BY ROW, ON THE EXTENDED REALS (no program is mentioned here).

  A batch is a table of rows; every operation of the network acts on each row by itself. A row x of 4 entries and a
  row t of 4 entries are laid side by side to a row of 8; an affine layer takes a row h to h · W + b; the
  rectifier takes z to max z 0. The forward value is

      out = relu(relu(relu([x t] · W1 + b1) · W2 + b2) · W3 + b3) · Wf + bf.

  Its derivative in x is computed backwards: the rectifier passes a cotangent where its argument was positive and
  blocks it elsewhere (gate), an affine layer pulls a cotangent g back to g · Wᵀ (back), and of the 8 entries of the
  joined row only the first 4 belong to x.

  Two spellings of the same numbers occur. The first layer may be computed as x · W1[0:4] + t · W1[4:8] instead of
  [x t] · W1: the sum over 8 positions is the sum over the first 4 plus the sum over the last 4 (join_split). The
  gate may be computed as a product with a 0/1 mask: g · 1 = g and g · 0 = 0 on every extended real (mul_mask).
-/
import Idealize.ShloMosaic.PureOps.Ideal.Laws
import Idealize.ShloMosaic.Lib.ValueIdx

noncomputable section

open scoped BigOperators

namespace Cert.Net

variable {M K N : ℕ}

/-- An affine layer: row r of the result is row r of h times the weight table, plus the bias row. -/
def lin (w : Fin K → Fin N → EReal) (b : Fin N → EReal) (h : Fin M → Fin K → EReal) : Fin M → Fin N → EReal :=
  fun r j => (∑ k : Fin K, h r k * w k j) + b j

/-- The rectifier, entry by entry. -/
def relu (z : Fin M → Fin N → EReal) : Fin M → Fin N → EReal := fun r j => max (z r j) 0

/-- The rectifier's pull-back: the cotangent g where the argument z was positive, zero elsewhere. -/
def gate (z g : Fin M → Fin N → EReal) : Fin M → Fin N → EReal := fun r j => if 0 < z r j then g r j else 0

/-- The 0/1 mask of the positive entries. -/
def mask (z : Fin M → Fin N → EReal) : Fin M → Fin N → EReal := fun r j => if 0 < z r j then 1 else 0

/-- An affine layer's pull-back: row r of the result is row r of g times the TRANSPOSED weight table. -/
def back (w : Fin N → Fin K → EReal) (g : Fin M → Fin K → EReal) : Fin M → Fin N → EReal :=
  fun r j => ∑ k : Fin K, g r k * w j k

/-- Two rows of four laid side by side. -/
def join (x t : Fin M → Fin 4 → EReal) : Fin M → Fin 8 → EReal :=
  fun r k => if h : k.val < 4 then x r ⟨k.val, h⟩ else t r ⟨k.val - 4, by omega⟩

/-- Position k of the first four among eight. -/
abbrev lo (k : Fin 4) : Fin 8 := ⟨k.val, by omega⟩
/-- Position k of the last four among eight. -/
abbrev hi (k : Fin 4) : Fin 8 := ⟨4 + k.val, by omega⟩

/-- The network's weights and biases. -/
structure Params where
  w1 : Fin 8 → Fin 64 → EReal
  b1 : Fin 64 → EReal
  w2 : Fin 64 → Fin 64 → EReal
  b2 : Fin 64 → EReal
  w3 : Fin 64 → Fin 64 → EReal
  b3 : Fin 64 → EReal
  wf : Fin 64 → Fin 1 → EReal
  bf : Fin 1 → EReal

variable (p : Params) (x t : Fin M → Fin 4 → EReal)

/-- The first layer's pre-activation. -/
def pre1 : Fin M → Fin 64 → EReal := lin p.w1 p.b1 (join x t)
/-- The second layer's pre-activation. -/
def pre2 : Fin M → Fin 64 → EReal := lin p.w2 p.b2 (relu (pre1 p x t))
/-- The third layer's pre-activation. -/
def pre3 : Fin M → Fin 64 → EReal := lin p.w3 p.b3 (relu (pre2 p x t))
/-- The network's value. -/
def out : Fin M → Fin 1 → EReal := lin p.wf p.bf (relu (pre3 p x t))

/-- The cotangent at the third pre-activation: the last layer's weights, gated. -/
def cot3 : Fin M → Fin 64 → EReal := gate (pre3 p x t) (fun _ j => p.wf j 0)
/-- The cotangent at the second pre-activation. -/
def cot2 : Fin M → Fin 64 → EReal := gate (pre2 p x t) (back p.w3 (cot3 p x t))
/-- The cotangent at the first pre-activation. -/
def cot1 : Fin M → Fin 64 → EReal := gate (pre1 p x t) (back p.w2 (cot2 p x t))
/-- The derivative of the (summed) value in x: the first four entries of the cotangent of the joined row. -/
def grad : Fin M → Fin 4 → EReal := fun r d => back p.w1 (cot1 p x t) r (lo d)

/-! ## The two spellings -/

/-- A sum over the eight joined positions is the sum over the first four plus the sum over the last four. -/
theorem join_split (w : Fin 8 → EReal) (r : Fin M) :
    ∑ k : Fin 8, join x t r k * w k = (∑ k : Fin 4, x r k * w (lo k)) + ∑ k : Fin 4, t r k * w (hi k) := by
  rw [Fin.sum_univ_eight, Fin.sum_univ_four, Fin.sum_univ_four]
  simp only [join, lo, hi]
  simp only [add_assoc]
  rfl

/-- The first layer in its split spelling. -/
theorem pre1_split (r : Fin M) (j : Fin 64) :
    ((∑ k : Fin 4, x r k * p.w1 (lo k) j) + ∑ k : Fin 4, t r k * p.w1 (hi k) j) + p.b1 j = pre1 p x t r j := by
  unfold pre1 lin
  rw [join_split x t (fun k => p.w1 k j) r]

/-- A cotangent times the 0/1 mask is the gated cotangent. -/
theorem mul_mask (z g : Fin M → Fin N → EReal) (r : Fin M) (j : Fin N) : g r j * mask z r j = gate z g r j := by
  unfold mask gate
  split
  · rw [mul_one]
  · rw [mul_zero]

end Cert.Net

end
-- ==== Proof.Arrays.lean ====
/-
  TABLES AND ROWS AS THE PROGRAMS STORE THEM, AGAINST THE ROW-BY-ROW NETWORK (no program is mentioned here).

  A program holds a table of a rows and b columns as a function of the index (r, j), and a row of a entries as a
  function of the index (j). The network of Net.lean is written over curried functions r ↦ j ↦ entry; cur and cur1
  pass from the stored form to the curried one, uncur passes back. params gathers a network's eight stored weight
  tables and bias rows.
-/
import proofs.«180682_j15178414424664_1_alg».proof.Proof.Net

noncomputable section

namespace Cert.Net

open Idealize.ShloMosaic Idealize.ShloMosaic.ValueIdx

/-- A stored table of a rows and b columns. -/
abbrev Tab (a b : ℕ) : Type := (⟨2, ![a, b]⟩ : Shape).Idx → EReal
/-- A stored row of a entries. -/
abbrev Row (a : ℕ) : Type := (⟨1, ![a]⟩ : Shape).Idx → EReal

/-- A stored table, curried. -/
def cur {a b : ℕ} (A : Tab a b) : Fin a → Fin b → EReal := fun r j => A (ix2 r j)
/-- A stored row, as a function of its one coordinate. -/
def cur1 {a : ℕ} (A : Row a) : Fin a → EReal := fun j => A (ix1 j)
/-- A curried table, stored. -/
def uncur {a b : ℕ} (f : Fin a → Fin b → EReal) : Tab a b := fun i => f (i 0) (i 1)

theorem cur_uncur {a b : ℕ} (f : Fin a → Fin b → EReal) : cur (uncur f) = f := rfl

theorem uncur_cur {a b : ℕ} (A : Tab a b) : uncur (cur A) = A := by
  funext i
  exact congrArg A (eq_ix2 i).symm

theorem uncur_apply {a b : ℕ} (f : Fin a → Fin b → EReal) (r : Fin a) (j : Fin b) : uncur f (ix2 r j) = f r j := rfl

/-- The network's parameters from its eight stored arrays. -/
def params (W1 : Tab 8 64) (b1 : Row 64) (W2 : Tab 64 64) (b2 : Row 64) (W3 : Tab 64 64) (b3 : Row 64) (Wf : Tab 64 1)
    (bf : Row 1) : Params :=
  ⟨cur W1, cur1 b1, cur W2, cur1 b2, cur W3, cur1 b3, cur Wf, cur1 bf⟩

/-- Rows f(r) of a table, for r in a smaller range: the row-by-row network commutes with taking rows, by its
    definition (every operation acts on each row by itself). -/
theorem out_rows {M M' : ℕ} (p : Params) (x t : Fin M → Fin 4 → EReal) (f : Fin M' → Fin M) :
    out p (fun r => x (f r)) (fun r => t (f r)) = fun r => out p x t (f r) := rfl

theorem grad_rows {M M' : ℕ} (p : Params) (x t : Fin M → Fin 4 → EReal) (f : Fin M' → Fin M) :
    grad p (fun r => x (f r)) (fun r => t (f r)) = fun r => grad p x t (f r) := rfl

end Cert.Net

end
-- ==== Proof.LibRowDots.lean ====
/-
  MATRIX PRODUCTS WHOSE RESULT ROW COMES FROM THE LEFT OPERAND'S ROW, READ AT AN INDEX (general lemmas; they mention no
  program).

  Two layouts of the right operand, both without batch axes and with one contracted axis of extent K:

  * PLAIN, [M, K] × [K, N] → [M, N]: the left operand's axis 1 is contracted with the right operand's axis 0. The left
    index at result index (i, j) and contraction position k is (i, k), the right index is (k, j).
  * GROUPED, [M, K] × [A, B, K] → [M, A, B]: the left operand's axis 1 is contracted with the right operand's axis 2;
    the right operand's two leading axes become the result's two trailing axes. The left index at result index
    (i, a, b) and contraction position k is (i, k), the right index is (a, b, k).

  In both the contraction index set has one axis, so it is Fin K, and on the extended reals the product is the finite
  sum over k of the operands' entries' products — for a product accumulated into zero and for the accumulator-free
  general dot alike.
-/
import Idealize.ShloMosaic.PureOps.Ideal.Laws
import Idealize.ShloMosaic.Lib.ValueIdx

noncomputable section

open scoped BigOperators

namespace Cert.Lib.RowDots

open Idealize.ShloMosaic Idealize.ShloMosaic.ValueIdx

/-- Reading one function of indices at two equal positions. -/
private theorem val_congr {r : Nat} {n : Fin r → Nat} (j : (a : Fin r) → Fin (n a)) (p p' : Nat) (hp : p < r) (hp' : p' < r)
    (e : p = p') : (j ⟨p, hp⟩).val = (j ⟨p', hp'⟩).val := by subst e; rfl

/-! ## Plain: [M, K] × [K, N] → [M, N] -/

section Plain

variable {M K N : Nat} (d : DotDims (⟨2, ![M, K]⟩ : Shape) (⟨2, ![K, N]⟩ : Shape) (⟨2, ![M, N]⟩ : Shape))

/-- The dimension numbers of x · w: contract left axis 1 with right axis 0, keep left axis 0 and right axis 1, no
    batch axes. -/
structure Plain : Prop where
  lc : d.lhsContracting = [1]
  rc : d.rhsContracting = [0]
  ln : d.lhsNonContracting = [0]
  rn : d.rhsNonContracting = [1]
  lb : d.lhsBatch = []
  rb : d.rhsBatch = []

variable {d}

theorem Plain.contr_rank (h : Plain d) : d.contr.rank = 1 := by rw [d.rank_contr, h.lc]; rfl

theorem Plain.contr_size (h : Plain d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
theorem Plain.lhs_row (h : Plain d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ Nat.zero_lt_two (by simp [h.lb, h.ln])

/-- The left operand's column is the contraction position. -/
theorem Plain.lhs_col (h : Plain d) (j : (⟨2, ![M, N]⟩ : Shape).Idx) (q : d.contr.Idx) :
    (d.lhsIdx j q 1).val = (q ⟨0, by rw [h.contr_rank]; exact Nat.one_pos⟩).val :=
  d.lhsIdx_val_of_single h.lc j q

/-- The right operand's row is the contraction position. -/
theorem Plain.rhs_row (h : Plain d) (j : (⟨2, ![M, N]⟩ : Shape).Idx) (q : d.contr.Idx) :
    (d.rhsIdx j q 0).val = (q ⟨0, by rw [h.contr_rank]; exact Nat.one_pos⟩).val :=
  d.rhsIdx_val_of_single h.rc j q

/-- The right operand's column is the result's column. -/
theorem Plain.rhs_col (h : Plain d) (j : (⟨2, ![M, N]⟩ : Shape).Idx) (q : d.contr.Idx) : (d.rhsIdx j q 1).val = (j 1).val := by
  have hb : (1 : Fin (⟨2, ![K, N]⟩ : Shape).rank) ∉ d.rhsBatch := by rw [h.rb]; exact List.not_mem_nil
  have hn : (1 : Fin (⟨2, ![K, N]⟩ : Shape).rank) ∈ d.rhsNonContracting := by rw [h.rn]; exact List.mem_singleton.mpr rfl
  unfold DotDims.rhsIdx
  rw [dif_neg hb, dif_pos hn]
  simp only [Fin.val_cast]
  exact val_congr j _ 1 _ Nat.one_lt_two (by simp [h.lb, h.ln, h.rn])

/-- The contraction's sum, re-indexed by the one contracted coordinate. -/
theorem Plain.sum_eq (h : Plain d) (l : (⟨2, ![M, K]⟩ : Shape).Idx → EReal) (r : (⟨2, ![K, N]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 k (j 1)) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix2 k (j 1) := funext fun a => Fin.ext (by
    match a with
    | ⟨0, _⟩ => exact (h.rhs_row _ _).trans hk
    | ⟨1, _⟩ => exact h.rhs_col _ _)
  exact congrArg₂ (· * ·) (congrArg l el) (congrArg r er)

/-- The product into the zero accumulator, at an index. -/
theorem Plain.matmul_zero_apply (h : Plain d) {φ₁ φ₂ : FTy} (prec : Option ContractPrecision)
    (l : FVec Ideal (⟨2, ![M, K]⟩ : Shape) φ₁) (r : FVec Ideal (⟨2, ![K, N]⟩ : Shape) φ₂) (j : (⟨2, ![M, N]⟩ : Shape).Idx) :
    FloatOps.matmul d prec l r (constant (⟨2, ![M, N]⟩ : Shape) .f32 0x00000000#32) j = ∑ k : Fin K, l (ix2 (j 0) k) * r (ix2 k (j 1)) :=
  (Ideal.matmul_constant_zero_apply d prec l r j).trans (h.sum_eq l r j)

/-- The accumulator-free general dot, at an index. -/
theorem Plain.dotGeneral_apply (h : Plain d) {φ₁ φ₂ : FTy} (prec : Option ContractPrecision) (sched : HostSchedule)
    (l : FVec Ideal (⟨2, ![M, K]⟩ : Shape) φ₁) (r : FVec Ideal (⟨2, ![K, N]⟩ : Shape) φ₂) (j : (⟨2, ![M, N]⟩ : Shape).Idx) :
    FloatOps.dotGeneral d prec sched l r j = ∑ k : Fin K, l (ix2 (j 0) k) * r (ix2 k (j 1)) :=
  (Ideal.dotGeneral_apply d prec sched l r j).trans (h.sum_eq l r j)

end Plain

/-! ## Grouped: [M, K] × [A, B, K] → [M, A, B] -/

section Grouped

variable {M K A B : Nat} (d : DotDims (⟨2, ![M, K]⟩ : Shape) (⟨3, ![A, B, K]⟩ : Shape) (⟨3, ![M, A, B]⟩ : Shape))

/-- The dimension numbers of the product of each row with each of A · B weight rows: contract left axis 1 with right
    axis 2, keep left axis 0 and right axes 0 and 1, no batch axes. -/
structure Grouped : Prop where
  lc : d.lhsContracting = [1]
  rc : d.rhsContracting = [2]
  ln : d.lhsNonContracting = [0]
  rn : d.rhsNonContracting = [0, 1]
  lb : d.lhsBatch = []
  rb : d.rhsBatch = []

variable {d}

theorem Grouped.contr_rank (h : Grouped d) : d.contr.rank = 1 := by rw [d.rank_contr, h.lc]; rfl

theorem Grouped.contr_size (h : Grouped d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

theorem Grouped.lhs_row (h : Grouped d) (j : (⟨3, ![M, A, B]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ (show 0 < 3 by omega) (by simp [h.lb, h.ln])

theorem Grouped.lhs_col (h : Grouped d) (j : (⟨3, ![M, A, B]⟩ : Shape).Idx) (q : d.contr.Idx) :
    (d.lhsIdx j q 1).val = (q ⟨0, by rw [h.contr_rank]; exact Nat.one_pos⟩).val :=
  d.lhsIdx_val_of_single h.lc j q

/-- The right operand's first axis is the result's second. -/
theorem Grouped.rhs_fst (h : Grouped d) (j : (⟨3, ![M, A, B]⟩ : Shape).Idx) (q : d.contr.Idx) : (d.rhsIdx j q 0).val = (j 1).val := by
  have hb : (0 : Fin (⟨3, ![A, B, K]⟩ : Shape).rank) ∉ d.rhsBatch := by rw [h.rb]; exact List.not_mem_nil
  have hn : (0 : Fin (⟨3, ![A, B, K]⟩ : Shape).rank) ∈ d.rhsNonContracting := by rw [h.rn]; simp
  unfold DotDims.rhsIdx
  rw [dif_neg hb, dif_pos hn]
  simp only [Fin.val_cast]
  exact val_congr j _ 1 _ (show 1 < 3 by omega) (by simp [h.lb, h.ln, h.rn])

/-- The right operand's second axis is the result's third. -/
theorem Grouped.rhs_snd (h : Grouped d) (j : (⟨3, ![M, A, B]⟩ : Shape).Idx) (q : d.contr.Idx) : (d.rhsIdx j q 1).val = (j 2).val := by
  have hb : (1 : Fin (⟨3, ![A, B, K]⟩ : Shape).rank) ∉ d.rhsBatch := by rw [h.rb]; exact List.not_mem_nil
  have hn : (1 : Fin (⟨3, ![A, B, K]⟩ : Shape).rank) ∈ d.rhsNonContracting := by rw [h.rn]; simp
  unfold DotDims.rhsIdx
  rw [dif_neg hb, dif_pos hn]
  simp only [Fin.val_cast]
  exact val_congr j _ 2 _ (show 2 < 3 by omega) (by simp [h.lb, h.ln, h.rn])

/-- The right operand's last axis is the contraction position. -/
theorem Grouped.rhs_last (h : Grouped d) (j : (⟨3, ![M, A, B]⟩ : Shape).Idx) (q : d.contr.Idx) :
    (d.rhsIdx j q 2).val = (q ⟨0, by rw [h.contr_rank]; exact Nat.one_pos⟩).val :=
  d.rhsIdx_val_of_single h.rc j q

theorem Grouped.sum_eq (h : Grouped d) (l : (⟨2, ![M, K]⟩ : Shape).Idx → EReal) (r : (⟨3, ![A, B, K]⟩ : Shape).Idx → EReal)
    (j : (⟨3, ![M, A, B]⟩ : Shape).Idx) :
    ∑ q : d.contr.Idx, l (d.lhsIdx j q) * r (d.rhsIdx j q) = ∑ k : Fin K, l (ix2 (j 0) k) * r (ix3 (j 1) (j 2) k) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix3 (j 1) (j 2) k := funext fun a => Fin.ext (by
    match a with
    | ⟨0, _⟩ => exact h.rhs_fst _ _
    | ⟨1, _⟩ => exact h.rhs_snd _ _
    | ⟨2, _⟩ => exact (h.rhs_last _ _).trans hk)
  exact congrArg₂ (· * ·) (congrArg l el) (congrArg r er)

/-- The accumulator-free general dot, at an index. -/
theorem Grouped.dotGeneral_apply (h : Grouped d) {φ₁ φ₂ : FTy} (prec : Option ContractPrecision) (sched : HostSchedule)
    (l : FVec Ideal (⟨2, ![M, K]⟩ : Shape) φ₁) (r : FVec Ideal (⟨3, ![A, B, K]⟩ : Shape) φ₂) (j : (⟨3, ![M, A, B]⟩ : Shape).Idx) :
    FloatOps.dotGeneral d prec sched l r j = ∑ k : Fin K, l (ix2 (j 0) k) * r (ix3 (j 1) (j 2) k) :=
  (Ideal.dotGeneral_apply d prec sched l r j).trans (h.sum_eq l r j)

end Grouped

end Cert.Lib.RowDots

end
-- ==== Proof.KerPay.lean ====
/-
  WHAT THE KERNEL'S BODY COMPUTES ON ONE BLOCK OF 2048 ROWS, AT THE EXACT (EXTENDED-REAL) VALUES.

  The body receives a block xb of 2048 rows of the differentiated input, the matching block tb of the second input,
  and the network's weights in the layouts the launch prepared: the first layer's table split in its first four rows
  (w1x) and its last four (w1t), each bias as a table of one row, and the transposes of the tables the backward pass
  multiplies by. `Reads p …` says that these blocks hold the parameters p. Under it the first stored value is the
  network's value on the block's rows (pay_out) and the second its derivative (pay_grad): both as uncur of Net.lean's
  row-by-row functions of cur xb and cur tb.
-/
import proofs.«180682_j15178414424664_1_alg».proof.Proof.Gen.KernelIdeal.Skeleton
import proofs.«180682_j15178414424664_1_alg».proof.Proof.Arrays
import proofs.«180682_j15178414424664_1_alg».proof.Proof.LibRowDots
import Idealize.ShloMosaic.Lib.ValueLayout
import Idealize.ShloMosaic.Lib.Pipeline.Value

noncomputable section

open scoped BigOperators

namespace Cert.KernelIdeal.Pay

open Cert.KernelIdeal Cert.KernelIdeal.Gen Cert.Net Idealize.ShloMosaic Idealize.ShloMosaic.ValueIdx

/-- The kernel's weight blocks hold the parameters p: the first layer's table in two halves, each bias as a one-row
    table, and the transposed copies the backward pass uses. -/
structure Reads (p : Params) (w1x w1t : Vec Ideal S4x64 .f32) (b1r : Vec Ideal S1x64 .f32) (w2 w2t : Vec Ideal S64x64 .f32)
    (b2r : Vec Ideal S1x64 .f32) (w3 w3t : Vec Ideal S64x64 .f32) (b3r : Vec Ideal S1x64 .f32) (wf : Vec Ideal S64x1 .f32)
    (wft : Vec Ideal S1x64 .f32) (bfr : Vec Ideal S1x1 .f32) (w1xt : Vec Ideal S64x4 .f32) : Prop where
  w1x : ∀ (k : Fin 4) (j : Fin 64), w1x (ix2 k j) = p.w1 (lo k) j
  w1t : ∀ (k : Fin 4) (j : Fin 64), w1t (ix2 k j) = p.w1 (hi k) j
  b1 : ∀ (u : Fin 1) (j : Fin 64), b1r (ix2 u j) = p.b1 j
  w2 : ∀ (k j : Fin 64), w2 (ix2 k j) = p.w2 k j
  w2t : ∀ (k j : Fin 64), w2t (ix2 k j) = p.w2 j k
  b2 : ∀ (u : Fin 1) (j : Fin 64), b2r (ix2 u j) = p.b2 j
  w3 : ∀ (k j : Fin 64), w3 (ix2 k j) = p.w3 k j
  w3t : ∀ (k j : Fin 64), w3t (ix2 k j) = p.w3 j k
  b3 : ∀ (u : Fin 1) (j : Fin 64), b3r (ix2 u j) = p.b3 j
  wf : ∀ (k : Fin 64) (u : Fin 1), wf (ix2 k u) = p.wf k u
  wft : ∀ (u : Fin 1) (j : Fin 64), wft (ix2 u j) = p.wf j 0
  bf : ∀ (u v : Fin 1), bfr (ix2 u v) = p.bf v
  w1xt : ∀ (j : Fin 64) (d : Fin 4), w1xt (ix2 j d) = p.w1 (lo d) j

/-! ## The layers, array by array

Each printed operation on a table of M rows is, entry by entry, one of the row-by-row operations of the network. The
lemmas below are stated for any number of rows and any widths. -/

section Layers

variable {M K N : ℕ}

/-- The word of all zero bits is the number zero. -/
private theorem zero_word : (Scalar.ofBits (F := Ideal) .f32 0x00000000#32 : Ideal .f32) = (0 : EReal) :=
  Ideal.ofBits_zero_f32

/-- A one-row table repeated over M rows reads its one row everywhere. -/
private theorem rows_arr (b : FVec Ideal (⟨2, ![1, N]⟩ : Shape) .f32) (hb : (⟨2, ![1, N]⟩ : Shape).Broadcasts ⟨2, ![M, N]⟩)
    (bb : Fin N → EReal) (hbb : ∀ (u : Fin 1) (j : Fin N), b (ix2 u j) = bb j) :
    broadcastTo (⟨2, ![M, N]⟩ : Shape) b hb = uncur (fun (_ : Fin M) j => bb j) := by
  funext i
  obtain ⟨r, j, rfl⟩ : ∃ r j, i = ix2 r j := ⟨i 0, i 1, eq_ix2 i⟩
  rw [broadcastTo_1b_ab_apply, hbb]
  rfl

/-- A product with a weight table, into zero: each row times the table. -/
private theorem mul_arr (d : DotDims (⟨2, ![M, K]⟩ : Shape) (⟨2, ![K, N]⟩ : Shape) (⟨2, ![M, N]⟩ : Shape))
    (hd : Cert.Lib.RowDots.Plain d) (prec : Option ContractPrecision)
    (A : FVec Ideal (⟨2, ![M, K]⟩ : Shape) .f32) (W : FVec Ideal (⟨2, ![K, N]⟩ : Shape) .f32)
    (w : Fin K → Fin N → EReal) (hW : ∀ k j, W (ix2 k j) = w k j) :
    matmul d prec A W (constant (F := Ideal) (⟨2, ![M, N]⟩ : Shape) .f32 0x00000000#32)
      = uncur (fun r j => ∑ k : Fin K, cur A r k * w k j) := by
  funext i
  obtain ⟨r, j, rfl⟩ : ∃ r j, i = ix2 r j := ⟨i 0, i 1, eq_ix2 i⟩
  refine (hd.matmul_zero_apply prec A W (ix2 r j)).trans ?_
  exact Finset.sum_congr rfl fun k _ => congrArg (A (ix2 r k) * ·) (hW k j)

/-- An affine layer: the product with the weight table plus the repeated bias row. -/
private theorem lin_arr (d : DotDims (⟨2, ![M, K]⟩ : Shape) (⟨2, ![K, N]⟩ : Shape) (⟨2, ![M, N]⟩ : Shape))
    (hd : Cert.Lib.RowDots.Plain d) (prec : Option ContractPrecision)
    (A : FVec Ideal (⟨2, ![M, K]⟩ : Shape) .f32) (W : FVec Ideal (⟨2, ![K, N]⟩ : Shape) .f32)
    (b : FVec Ideal (⟨2, ![1, N]⟩ : Shape) .f32) (hb : (⟨2, ![1, N]⟩ : Shape).Broadcasts ⟨2, ![M, N]⟩)
    (w : Fin K → Fin N → EReal) (bb : Fin N → EReal) (hW : ∀ k j, W (ix2 k j) = w k j)
    (hbb : ∀ (u : Fin 1) (j : Fin N), b (ix2 u j) = bb j) :
    addf (matmul d prec A W (constant (F := Ideal) (⟨2, ![M, N]⟩ : Shape) .f32 0x00000000#32))
        (broadcastTo (⟨2, ![M, N]⟩ : Shape) b hb)
      = uncur (lin w bb (cur A)) := by
  rw [mul_arr d hd prec A W w hW, rows_arr b hb bb hbb]
  rfl

/-- The rectifier: the maximum with the repeated zero. -/
private theorem relu_arr (Z : FVec Ideal (⟨2, ![M, N]⟩ : Shape) .f32) :
    maximumf Z (broadcast (⟨2, ![M, N]⟩ : Shape) (Scalar.ofBits (F := Ideal) .f32 0x00000000#32)) = uncur (relu (cur Z)) := by
  funext i
  obtain ⟨r, j, rfl⟩ : ∃ r j, i = ix2 r j := ⟨i 0, i 1, eq_ix2 i⟩
  rw [maximumf_apply, broadcast_apply, zero_word]
  rfl

/-- The 0/1 mask: the comparison with the repeated zero, widened to a word and read as a signed integer. -/
private theorem mask_arr (Z : FVec Ideal (⟨2, ![M, N]⟩ : Shape) .f32) (h32 : 1 < 32) :
    (sitofp .f32 (extui 32 (cmpf .ogt Z (broadcast (⟨2, ![M, N]⟩ : Shape) (Scalar.ofBits (F := Ideal) .f32 0x00000000#32))) h32)
        : FVec Ideal (⟨2, ![M, N]⟩ : Shape) .f32)
      = uncur (mask (cur Z)) := by
  funext i
  obtain ⟨r, j, rfl⟩ : ∃ r j, i = ix2 r j := ⟨i 0, i 1, eq_ix2 i⟩
  rw [sitofp_apply, extui_apply, cmpf_apply, broadcast_apply, zero_word, Ideal.cmpf_def]
  show FloatOps.sitofp (F := Ideal) .f32 ((Ideal.cmp .ogt (Z (ix2 r j)) 0).setWidth 32) = if 0 < Z (ix2 r j) then 1 else 0
  unfold Ideal.cmp
  by_cases hz : 0 < Z (ix2 r j)
  · rw [if_pos hz]
    simp only [hz, decide_true]
    have e : ((BitVec.ofBool true).setWidth 32).toInt = 1 := by decide
    show ((((BitVec.ofBool true).setWidth 32).toInt : ℝ) : EReal) = 1
    rw [e, Int.cast_one, EReal.coe_one]
  · rw [if_neg hz]
    simp only [hz, decide_false]
    have e : ((BitVec.ofBool false).setWidth 32).toInt = 0 := by decide
    show ((((BitVec.ofBool false).setWidth 32).toInt : ℝ) : EReal) = 0
    rw [e, Int.cast_zero, EReal.coe_zero]

/-- A cotangent times the 0/1 mask is the gated cotangent. -/
private theorem gate_arr (G : FVec Ideal (⟨2, ![M, N]⟩ : Shape) .f32) (z : Fin M → Fin N → EReal) :
    mulf G (uncur (mask z) : FVec Ideal (⟨2, ![M, N]⟩ : Shape) .f32) = uncur (gate z (cur G)) := by
  funext i
  obtain ⟨r, j, rfl⟩ : ∃ r j, i = ix2 r j := ⟨i 0, i 1, eq_ix2 i⟩
  rw [mulf_apply]
  exact mul_mask z (cur G) r j

/-- An affine layer's pull-back: the product with the transposed weight table. -/
private theorem back_arr (d : DotDims (⟨2, ![M, K]⟩ : Shape) (⟨2, ![K, N]⟩ : Shape) (⟨2, ![M, N]⟩ : Shape))
    (hd : Cert.Lib.RowDots.Plain d) (prec : Option ContractPrecision)
    (G : FVec Ideal (⟨2, ![M, K]⟩ : Shape) .f32) (Wt : FVec Ideal (⟨2, ![K, N]⟩ : Shape) .f32)
    (w : Fin N → Fin K → EReal) (hW : ∀ k j, Wt (ix2 k j) = w j k) :
    matmul d prec G Wt (constant (F := Ideal) (⟨2, ![M, N]⟩ : Shape) .f32 0x00000000#32) = uncur (back w (cur G)) :=
  mul_arr d hd prec G Wt (fun k j => w j k) hW

end Layers

variable {p : Params} {w1x w1t : Vec Ideal S4x64 .f32} {b1r : Vec Ideal S1x64 .f32} {w2 w2t : Vec Ideal S64x64 .f32}
  {b2r : Vec Ideal S1x64 .f32} {w3 w3t : Vec Ideal S64x64 .f32} {b3r : Vec Ideal S1x64 .f32} {wf : Vec Ideal S64x1 .f32}
  {wft : Vec Ideal S1x64 .f32} {bfr : Vec Ideal S1x1 .f32} {w1xt : Vec Ideal S64x4 .f32}

/-! ## The four products of the body are plain row-times-table products -/

private theorem plain_4_64 : Cert.Lib.RowDots.Plain dot_S2048x4_S4x64_S2048x64_1_0_0_1_n_n := ⟨rfl, rfl, rfl, rfl, rfl, rfl⟩
private theorem plain_64_64 : Cert.Lib.RowDots.Plain dot_S2048x64_S64x64_S2048x64_1_0_0_1_n_n := ⟨rfl, rfl, rfl, rfl, rfl, rfl⟩
private theorem plain_64_1 : Cert.Lib.RowDots.Plain dot_S2048x64_S64x1_S2048x1_1_0_0_1_n_n := ⟨rfl, rfl, rfl, rfl, rfl, rfl⟩
private theorem plain_64_4 : Cert.Lib.RowDots.Plain dot_S2048x64_S64x4_S2048x4_1_0_0_1_n_n := ⟨rfl, rfl, rfl, rfl, rfl, rfl⟩

/-- The first layer in its split spelling: the block of x times the first four rows of the table, plus the block of t
    times the last four, plus the bias row. -/
private theorem pre1_arr (h : Reads p w1x w1t b1r w2 w2t b2r w3 w3t b3r wf wft bfr w1xt) (tb xb : Vec Ideal S2048x4 .f32) :
    addf (addf (matmul (φ₁ := .f32) (φ₂ := .f32) dot_S2048x4_S4x64_S2048x64_1_0_0_1_n_n (some .fp32) xb w1x (constant (F := Ideal) S2048x64 .f32 0x00000000#32))
          (matmul (φ₁ := .f32) (φ₂ := .f32) dot_S2048x4_S4x64_S2048x64_1_0_0_1_n_n (some .fp32) tb w1t (constant (F := Ideal) S2048x64 .f32 0x00000000#32)))
        (broadcastTo S2048x64 b1r broadcasts_S1x64_S2048x64)
      = uncur (pre1 p (cur xb) (cur tb)) := by
  rw [mul_arr _ plain_4_64 _ xb w1x (fun k j => p.w1 (lo k) j) h.w1x,
    mul_arr _ plain_4_64 _ tb w1t (fun k j => p.w1 (hi k) j) h.w1t, rows_arr b1r _ p.b1 h.b1]
  funext i
  obtain ⟨r, j, rfl⟩ : ∃ r j, i = ix2 r j := ⟨i 0, i 1, eq_ix2 i⟩
  exact pre1_split p (cur xb) (cur tb) r j

/-- The value stored to the first output: the network's value on the block's rows. -/
theorem pay_out (h : Reads p w1x w1t b1r w2 w2t b2r w3 w3t b3r wf wft bfr w1xt) (tb xb : Vec Ideal S2048x4 .f32) :
    k0_pay3 (F := Ideal) (k0_pay2 tb xb w1x w1t b1r w2 b2r w3 b3r) wf bfr = uncur (out p (cur xb) (cur tb)) := by
  unfold k0_pay3 k0_pay2
  simp only [shapeCast_self]
  rw [pre1_arr h tb xb, relu_arr, lin_arr _ plain_64_64 _ _ w2 b2r _ p.w2 p.b2 h.w2 h.b2, relu_arr,
    lin_arr _ plain_64_64 _ _ w3 b3r _ p.w3 p.b3 h.w3 h.b3, relu_arr, lin_arr _ plain_64_1 _ _ wf bfr _ p.wf p.bf h.wf h.bf]
  rfl

/-- The value stored to the second output: the derivative of the network's value in the block's rows of xb. -/
theorem pay_grad (h : Reads p w1x w1t b1r w2 w2t b2r w3 w3t b3r wf wft bfr w1xt) (tb xb : Vec Ideal S2048x4 .f32) :
    k0_pay1 (F := Ideal) (k0_pay4 tb xb w1x w1t b1r) (k0_pay5 tb xb w1x w1t b1r w2 b2r) (k0_pay6 tb xb w1x w1t b1r w2 b2r w3)
        (k0_pay7 b3r) wft w3t w2t w1xt
      = uncur (grad p (cur xb) (cur tb)) := by
  unfold k0_pay1 k0_pay7 k0_pay6 k0_pay5 k0_pay4
  simp only [shapeCast_self]
  rw [pre1_arr h tb xb, relu_arr, lin_arr _ plain_64_64 _ _ w2 b2r _ p.w2 p.b2 h.w2 h.b2, relu_arr,
    lin_arr _ plain_64_64 _ _ w3 b3r _ p.w3 p.b3 h.w3 h.b3, mask_arr, mask_arr, mask_arr,
    rows_arr wft _ (fun j => p.wf j 0) h.wft, gate_arr, back_arr _ plain_64_64 _ _ w3t p.w3 h.w3t, gate_arr,
    back_arr _ plain_64_64 _ _ w2t p.w2 h.w2t, gate_arr, back_arr _ plain_64_4 _ _ w1xt (fun d k => p.w1 (lo d) k) h.w1xt]
  rfl

end Cert.KernelIdeal.Pay

end
-- ==== Proof.LibRowNetLayout.lean ====
/-
  LAYOUT OPERATIONS OF A ROW-WISE NETWORK, READ AT AN INDEX (general lemmas; they mention no program).

  A table [a, b] of biases joins a batch [c, a, b] in two steps: it is placed as the one slab of [1, a, b] and that slab
  is repeated along the leading axis. A row statistic [a] joins its rows [a, b] in two steps as well: it is placed as
  the column [a, 1] and the column is repeated along the second axis. A scalar is repeated over any shape. An array
  [a, b, c] read as [a, n] with n = b · c lays each item's b groups of c side by side: column p · c + q is the pair
  (p, q). And the sum over the second axis of [a, b], on the extended reals, is the initial value plus the finite sum
  over that axis's coordinates. Every statement reads the operation at an index written by its coordinates and names
  the operand's entry it is.
-/
import Idealize.ShloMosaic.Lib.Pipeline.Value
import Idealize.ShloMosaic.Lib.ValueIdx
import Idealize.ShloMosaic.PureOps.Ideal.Laws

noncomputable section

open scoped BigOperators

namespace Cert.RefLayout

open Idealize.ShloMosaic Idealize.ShloMosaic.ValueIdx

variable {α : Type}

/-- A scalar repeated over a shape reads, at every index, the scalar. -/
theorem broadcastInDim_scalar_apply {t : Shape} (dims : Fin 0 → Fin t.rank) (x : (⟨0, ![]⟩ : Shape).Idx → α)
    (h : (⟨0, ![]⟩ : Shape).BroadcastsInDim t dims) (j : t.Idx) : broadcastInDim t dims h x j = x ix0 :=
  broadcastInDim_apply dims h x j ix0 fun a => a.elim0

/-- A table `[a, b]` placed as the one slab of `[1, a, b]` reads, at `(u, i, j)`, the table at `(i, j)`. -/
theorem broadcastInDim_ab_1ab_apply {a b : ℕ} (x : (⟨2, ![a, b]⟩ : Shape).Idx → α)
    (h : (⟨2, ![a, b]⟩ : Shape).BroadcastsInDim ⟨3, ![1, a, b]⟩ ![1, 2]) (u : Fin 1) (i : Fin a) (j : Fin b) :
    broadcastInDim ⟨3, ![1, a, b]⟩ ![1, 2] h x (ix3 u i j) = x (ix2 i j) := by
  refine broadcastInDim_apply _ h x (ix3 u i j) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- The one slab `[1, a, b]` repeated to `[c, a, b]` reads, at `(w, i, j)`, the slab at `(0, i, j)`. -/
theorem broadcastInDim_1ab_cab_apply {a b c : ℕ} (x : (⟨3, ![1, a, b]⟩ : Shape).Idx → α)
    (h : (⟨3, ![1, a, b]⟩ : Shape).BroadcastsInDim ⟨3, ![c, a, b]⟩ ![0, 1, 2]) (w : Fin c) (i : Fin a) (j : Fin b) :
    broadcastInDim ⟨3, ![c, a, b]⟩ ![0, 1, 2] h x (ix3 w i j) = x (ix3 (0 : Fin 1) i j) := by
  refine broadcastInDim_apply _ h x (ix3 w i j) (ix3 (0 : Fin 1) i j) fun ax => ?_
  match ax with
  | ⟨0, _⟩ =>
    show (0 : ℕ) = if (1 : ℕ) = 1 then 0 else w.val
    rw [if_pos rfl]
  | ⟨1, _⟩ =>
    show i.val = if a = 1 then 0 else i.val
    split
    · have := i.isLt; omega
    · rfl
  | ⟨2, _⟩ =>
    show j.val = if b = 1 then 0 else j.val
    split
    · have := j.isLt; omega
    · rfl

/-- A vector `[a]` placed as the column `[a, 1]` reads, at `(i, u)`, the vector at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- The column `[a, 1]` repeated to `[a, b]` reads, at `(i, j)`, the column at `(i, 0)`. -/
theorem broadcastInDim_a1_ab_apply {a b : ℕ} (x : (⟨2, ![a, 1]⟩ : Shape).Idx → α)
    (h : (⟨2, ![a, 1]⟩ : Shape).BroadcastsInDim ⟨2, ![a, b]⟩ ![0, 1]) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ =>
    show (0 : ℕ) = if (1 : ℕ) = 1 then 0 else j.val
    rw [if_pos rfl]

/-- An `[a, b, c]` array read as `[a, n]` with `n = b · c` (its two trailing axes taken as one) reads, at `(i, r)` with
    `r = p · c + q`, the operand at `(i, p, q)`. -/
theorem shapeCast_abc_an_apply {a b c n : ℕ} (hn : n = b * c) (x : (⟨3, ![a, b, c]⟩ : Shape).Idx → α)
    (h : (⟨3, ![a, b, c]⟩ : Shape).ShapeCasts ⟨2, ![a, n]⟩) (i : Fin a) (p : Fin b) (q : Fin c) (r : Fin n)
    (hr : r.val = p.val * c + q.val) : shapeCast ⟨2, ![a, n]⟩ x h (ix2 i r) = x (ix3 i p q) :=
  shapeCast_apply x h _ _ (by
    rw [Shape.rowMajor_val_three, Shape.rowMajor_val_two]
    show (i.val * b + p.val) * c + q.val = i.val * n + r.val
    rw [hr, hn, Nat.add_mul, Nat.mul_assoc, Nat.add_assoc])

/-- The coordinates of the source index a sum over the second axis of `[a, b]` visits: row `i`, column `k`. -/
theorem lift_rows {a b : ℕ} (h : (⟨2, ![a, b]⟩ : Shape).Reduces [1] ⟨1, ![a]⟩) (i : Fin a) (k : Fin b) :
    h.lift (ix1 i) k = ix2 i k := by
  funext c
  apply Fin.ext
  match c with
  | ⟨0, _⟩ => rfl
  | ⟨1, _⟩ => rfl

/-- The sum over the second axis of `[a, b]`, on the extended reals, read at `i`: the initial value plus the sum over
    the columns `k` of the operand at `(i, k)`. -/
theorem hostReduceAdd_rows_apply {a b : ℕ} (h' : (⟨2, ![a, b]⟩ : Shape).ReducesTo [1] ⟨1, ![a]⟩)
    (h : (⟨2, ![a, b]⟩ : Shape).Reduces [1] ⟨1, ![a]⟩) (x : (⟨2, ![a, b]⟩ : Shape).Idx → EReal) (init : EReal) (i : Fin a) :
    Ideal.hostReduceAdd h' x init (ix1 i) = init + ∑ k : Fin b, x (ix2 i k) := by
  rw [Ideal.hostReduceAdd_single h' h]
  refine congrArg (init + ·) (Finset.sum_congr rfl fun k _ => ?_)
  exact congrArg x (lift_rows h i k)

end Cert.RefLayout

end
-- ==== Proof.KerRun.lean ====
/-
  THE KERNEL'S THREE RESULTS AFTER ITS RUN, AS FUNCTIONS OF THE ARGUMENTS (at the exact, extended-real values).

  At every grid point the weight windows hold the launched parameters (reads), so the body stores the network's value
  and its derivative on the block's rows (KerPay.lean). The network acts on every row by itself and block t holds rows
  2048 t … 2048 t + 2047, so what point t writes back is block t of the network's value, resp. of its derivative, on
  the whole batch (flushed_out, flushed_grad); the 64 blocks cover all 131072 rows (cover_out, cover_grad), hence the
  two result arrays end holding exactly those functions (final_out, final_grad). The third result is written after the
  launch from the zero constant (tail_hess). run states the kernel's run with all three results named and the twelve
  arguments unchanged.
-/
import proofs.«180682_j15178414424664_1_alg».proof.Proof.Gen.KernelIdeal.Frame
import proofs.«180682_j15178414424664_1_alg».proof.Proof.KerBlocks
import proofs.«180682_j15178414424664_1_alg».proof.Proof.KerPay
import proofs.«180682_j15178414424664_1_alg».proof.Proof.LibRowNetLayout
import Idealize.ShloMosaic.Lib.Pipeline.Value
import Idealize.ShloMosaic.Lib.ValueLayout
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Whole

open Cert.KernelIdeal Cert.KernelIdeal.Gen Cert.KernelIdeal.Blocks Cert.KernelIdeal.Pay Cert.Net

variable (m : (ℓ : Loc nD τ sig) → Buf (Elt Ideal) ℓ) (ρ : Dev nD → PrngReg)

/-- The network's parameters as launched on core c. -/
def par (c : Dev nD) : Params :=
  params (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

/-- The network's value on the whole batch: rows of the first argument joined with rows of the fourth. -/
def Y (c : Dev nD) : S131072x1.Idx → EReal :=
  uncur (out (par m c) (cur (m ((c : Thread nD τ).loc main_arg0))) (cur (m ((c : Thread nD τ).loc main_arg3))))

/-- The network's derivative in the rows of the second argument (joined with rows of the fourth) on the whole batch. -/
def DY (c : Dev nD) : S131072x4.Idx → EReal :=
  uncur (grad (par m c) (cur (m ((c : Thread nD τ).loc main_arg1))) (cur (m ((c : Thread nD τ).loc main_arg3))))

/-! ## The weight windows hold the launched parameters -/

theorem reads (c : Dev nD) (t : Fin cfg0.N) :
    Reads (par m c) (iblk m c 3 t) (iblk m c 4 t) (iblk m c 5 t) (iblk m c 6 t) (iblk m c 7 t) (iblk m c 8 t) (iblk m c 9 t)
      (iblk m c 10 t) (iblk m c 11 t) (iblk m c 12 t) (iblk m c 13 t) (iblk m c 14 t) (iblk m c 15 t) where
  w1x k j := by
    rw [whole_3, V_v0]
    exact slice2_axis0_apply 0 _ _ k j (lo k) (Nat.zero_add _).symm
  w1t k j := by
    rw [whole_4, V_v1]
    exact slice2_axis0_apply 4 _ _ k j (hi k) rfl
  b1 u j := by
    rw [whole_5, V_v6]
    exact shapeCast_a_1a_apply _ _ u j
  w2 k j := by
    rw [whole_6, V_main_arg6]
    rfl
  w2t k j := by
    rw [whole_7, V_v3]
    exact transpose_ix2_apply _ _ k j
  b2 u j := by
    rw [whole_8, V_v7]
    exact shapeCast_a_1a_apply _ _ u j
  w3 k j := by
    rw [whole_9, V_main_arg8]
    rfl
  w3t k j := by
    rw [whole_10, V_v4]
    exact transpose_ix2_apply _ _ k j
  b3 u j := by
    rw [whole_11, V_v8]
    exact shapeCast_a_1a_apply _ _ u j
  wf k u := by
    rw [whole_12, V_main_arg10]
    rfl
  wft u j := by
    rw [whole_13, V_v5]
    obtain rfl : u = 0 := Subsingleton.elim _ _
    exact transpose_ix2_apply _ _ 0 j
  bf u v := by
    rw [whole_14, V_v9]
    exact shapeCast_a_1a_apply _ _ u v
  w1xt j d := by
    rw [whole_15, V_v2]
    refine (transpose_ix2_apply _ _ j d).trans ?_
    exact slice2_axis0_apply 0 _ _ d j (lo d) (Nat.zero_add _).symm

/-! ## What each point writes back -/

theorem hz : (![0, 0] : Fin 2 → Nat) = fun _ => 0 := funext fun a => by fin_cases a <;> rfl

/-- The rows of block t of the first, second and fourth arguments. -/
theorem rows_x1 (c : Dev nD) (t : Fin cfg0.N) :
    cur (iblk m c 0 t : Vec Ideal S2048x4 .f32) = fun r => cur (m ((c : Thread nD τ).loc main_arg0)) (rowOf t r) :=
  funext fun r => funext fun k => blk_x1 m c t r k
theorem rows_x2 (c : Dev nD) (t : Fin cfg0.N) :
    cur (iblk m c 1 t : Vec Ideal S2048x4 .f32) = fun r => cur (m ((c : Thread nD τ).loc main_arg1)) (rowOf t r) :=
  funext fun r => funext fun k => blk_x2 m c t r k
theorem rows_t (c : Dev nD) (t : Fin cfg0.N) :
    cur (iblk m c 2 t : Vec Ideal S2048x4 .f32) = fun r => cur (m ((c : Thread nD τ).loc main_arg3)) (rowOf t r) :=
  funext fun r => funext fun k => blk_t m c t r k

/-- Point t writes back block t of the network's value on the whole batch. -/
theorem flushed_out (c : Dev nD) (t : Fin cfg0.N) :
    (dats m 0 c).flushed 16 t = ((cfg0.win 16).blk t).view.read (Elt Ideal) (Y m c) := by
  show (cfg0.win 16).cut (grid0.coords t) ((dats m 0 c).after 16 t) = _
  rw [after0_16]
  unfold out0_16
  rw [View.canon_unit_zero hz]
  simp only [View.ld_unit_zero (S := S2048x4) hz, View.ld_unit_zero (S := S4x64) hz, View.ld_unit_zero (S := S1x64) hz,
    View.ld_unit_zero (S := S64x64) hz, View.ld_unit_zero (S := S64x1) hz, View.ld_unit_zero (S := S1x1) hz]
  rw [pay_out (reads m c t) (iblk m c 2 t) (iblk m c 0 t), rows_x1, rows_t]
  obtain ⟨-, -, -, -, -, -, e6, e7, -⟩ := idx_rows t
  funext j
  have hemb : ((cfg0.win 16).blk t).view.emb j = ix2 (rowOf t (j 0)) (j 1) := funext fun a => Fin.ext (by
    match a with
    | ⟨0, _⟩ => show win0_16.index t 0 * 2048 + 1 * (j 0).val = 2048 * t.val + (j 0).val; rw [e6]; omega
    | ⟨1, _⟩ => show win0_16.index t 1 * 1 + 1 * (j 1).val = (j 1).val; rw [e7]; omega)
  show _ = Y m c (((cfg0.win 16).blk t).view.emb j)
  rw [hemb]
  rfl

/-- Point t writes back block t of the network's derivative on the whole batch. -/
theorem flushed_grad (c : Dev nD) (t : Fin cfg0.N) :
    (dats m 0 c).flushed 17 t = ((cfg0.win 17).blk t).view.read (Elt Ideal) (DY m c) := by
  show (cfg0.win 17).cut (grid0.coords t) ((dats m 0 c).after 17 t) = _
  rw [after0_17]
  unfold out0_17
  rw [View.canon_unit_zero hz]
  simp only [View.ld_unit_zero (S := S2048x4) hz, View.ld_unit_zero (S := S4x64) hz, View.ld_unit_zero (S := S1x64) hz,
    View.ld_unit_zero (S := S64x64) hz, View.ld_unit_zero (S := S64x4) hz]
  rw [pay_grad (reads m c t) (iblk m c 2 t) (iblk m c 1 t), rows_x2, rows_t]
  obtain ⟨-, -, -, -, -, -, -, -, e8, e9⟩ := idx_rows t
  funext j
  have hemb : ((cfg0.win 17).blk t).view.emb j = ix2 (rowOf t (j 0)) (j 1) := funext fun a => Fin.ext (by
    match a with
    | ⟨0, _⟩ => show win0_17.index t 0 * 2048 + 1 * (j 0).val = 2048 * t.val + (j 0).val; rw [e8]; omega
    | ⟨1, _⟩ => show win0_17.index t 1 * 4 + 1 * (j 1).val = (j 1).val; rw [e9]; omega)
  show _ = DY m c (((cfg0.win 17).blk t).view.emb j)
  rw [hemb]
  rfl

/-! ## The 64 blocks cover the batch -/

/-- Row r lies in block r / 2048. -/
theorem cover_out (i : S131072x1.Idx) :
    ∃ t : Fin cfg0.N, (cfg0.win 16).flush t = true ∧ i ∈ ((cfg0.win 16).blk t).view.set := by
  have h0 : (i 0).val < 131072 := (i 0).isLt
  have h1 : (i 1).val < 1 := (i 1).isLt
  have hN : (i 0).val / 2048 < cfg0.N := by rw [show cfg0.N = 64 from N_0]; omega
  refine ⟨⟨(i 0).val / 2048, hN⟩, flush0_16 _, ?_⟩
  obtain ⟨-, -, -, -, -, -, e6, e7, -⟩ := idx_rows ⟨(i 0).val / 2048, hN⟩
  show i ∈ ((View.whole main_v10_0).slice (win0_16.rect ⟨(i 0).val / 2048, hN⟩)).set
  rw [View.set_slice_whole, Rect.mem_set_unit]
  intro a
  match a with
  | ⟨0, _⟩ =>
    show win0_16.index ⟨(i 0).val / 2048, hN⟩ 0 * 2048 ≤ (i 0).val
      ∧ (i 0).val < win0_16.index ⟨(i 0).val / 2048, hN⟩ 0 * 2048 + 2048
    rw [e6]
    show (i 0).val / 2048 * 2048 ≤ (i 0).val ∧ (i 0).val < (i 0).val / 2048 * 2048 + 2048
    omega
  | ⟨1, _⟩ =>
    show win0_16.index ⟨(i 0).val / 2048, hN⟩ 1 * 1 ≤ (i 1).val
      ∧ (i 1).val < win0_16.index ⟨(i 0).val / 2048, hN⟩ 1 * 1 + 1
    rw [e7]
    omega

theorem cover_grad (i : S131072x4.Idx) :
    ∃ t : Fin cfg0.N, (cfg0.win 17).flush t = true ∧ i ∈ ((cfg0.win 17).blk t).view.set := by
  have h0 : (i 0).val < 131072 := (i 0).isLt
  have h1 : (i 1).val < 4 := (i 1).isLt
  have hN : (i 0).val / 2048 < cfg0.N := by rw [show cfg0.N = 64 from N_0]; omega
  refine ⟨⟨(i 0).val / 2048, hN⟩, flush0_17 _, ?_⟩
  obtain ⟨-, -, -, -, -, -, -, -, e8, e9⟩ := idx_rows ⟨(i 0).val / 2048, hN⟩
  show i ∈ ((View.whole main_v10_1).slice (win0_17.rect ⟨(i 0).val / 2048, hN⟩)).set
  rw [View.set_slice_whole, Rect.mem_set_unit]
  intro a
  match a with
  | ⟨0, _⟩ =>
    show win0_17.index ⟨(i 0).val / 2048, hN⟩ 0 * 2048 ≤ (i 0).val
      ∧ (i 0).val < win0_17.index ⟨(i 0).val / 2048, hN⟩ 0 * 2048 + 2048
    rw [e8]
    show (i 0).val / 2048 * 2048 ≤ (i 0).val ∧ (i 0).val < (i 0).val / 2048 * 2048 + 2048
    omega
  | ⟨1, _⟩ =>
    show win0_17.index ⟨(i 0).val / 2048, hN⟩ 1 * 4 ≤ (i 1).val
      ∧ (i 1).val < win0_17.index ⟨(i 0).val / 2048, hN⟩ 1 * 4 + 4
    rw [e9]
    omega

/-! ## The result arrays after the run -/

theorem final_out (c : Dev nD) : (dats m 0 c).arrAt 16 cfg0.N = Y m c :=
  (dats m 0 c).arrAt_eq_of_cover 16 (Y m c) (fun t _ => flushed_out m c t) cover_out

theorem final_grad (c : Dev nD) : (dats m 0 c).arrAt 17 cfg0.N = DY m c :=
  (dats m 0 c).arrAt_eq_of_cover 17 (DY m c) (fun t _ => flushed_grad m c t) cover_grad

/-- The third result: the zero constant repeated over [131072, 4, 4]. -/
theorem tail_hess (c : Dev nD) :
    Pipeline.afterTail₀ cfgs (dats m) 0 (V0 m) [hostOps1] c main_v11 = fun _ => (0 : EReal) := by
  unfold Pipeline.afterTail₀
  show StableHlo.after hostOps1 _ (Proc.devRef .tc main_v11) = _
  after_results
  funext i
  rw [Cert.RefLayout.broadcastInDim_scalar_apply]
  exact Ideal.ofBits_zero_f32

/-! ## The run, read -/

theorem run : θ_run defs (onTc (τ := τ) (main (F := Ideal))) ⟨m, fun _ => 0, ρ⟩ fun r => ∀ c : Dev nD,
      r.2.mem ((c : Thread nD τ).loc main_v10_0) = Y m c
      ∧ r.2.mem ((c : Thread nD τ).loc main_v10_1) = DY m c
      ∧ r.2.mem ((c : Thread nD τ).loc main_v11) = (fun _ => (0 : EReal))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨((h c).1 16).trans (final_out m c), ((h c).1 17).trans (final_grad m c),
      ((h c).2 main_v11 (Pipeline.mem_restRefs_of main_v11 (by decide) (by decide))).trans (tail_hess m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      ((h c).1 2).trans (((dats m 0 c).arrAt_in 2 rfl _).trans ((A_eq m c 2).trans (V_main_arg3 m c))),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      (((h c).2 main_arg7 (Pipeline.mem_restRefs_of main_arg7 (by decide) (by decide))).trans (W_main_arg7 m (dats m) c)),
      ((h c).1 9).trans (((dats m 0 c).arrAt_in 9 rfl _).trans ((A_eq m c 9).trans (V_main_arg8 m c))),
      (((h c).2 main_arg9 (Pipeline.mem_restRefs_of main_arg9 (by decide) (by decide))).trans (W_main_arg9 m (dats m) c)),
      ((h c).1 12).trans (((dats m 0 c).arrAt_in 12 rfl _).trans ((A_eq m c 12).trans (V_main_arg10 m c))),
      (((h c).2 main_arg11 (Pipeline.mem_restRefs_of main_arg11 (by decide) (by decide))).trans (W_main_arg11 m (dats m) c))⟩)
    (run_main m ρ)

end Cert.KernelIdeal.Whole

end
-- ==== Proof.LibRowBroadcast.lean ====
/-
  ONE ROW REPEATED OVER MANY, IN THE HOST'S SPELLING, READ AT AN INDEX (general lemmas; they mention no program).

  A vector [b] joins a table [a, b] in two steps: it is placed as the one row of [1, b], and that row is repeated along
  the leading axis. At (u, j) the placed row reads the vector at j; at (i, j) the repeated row reads the row at (0, j).
-/
import Idealize.ShloMosaic.Lib.Pipeline.Value
import Idealize.ShloMosaic.Lib.ValueIdx

namespace Cert.Lib.RowBroadcast

open Idealize.ShloMosaic Idealize.ShloMosaic.ValueIdx

variable {α : Type}

/-- A vector `[b]` placed as the one row of `[1, b]` reads, at `(u, j)`, the vector at `j`. -/
theorem broadcastInDim_b_1b_apply {b : ℕ} (x : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- The one row `[1, b]` repeated to `[a, b]` reads, at `(i, j)`, the row at `(0, j)`. -/
theorem broadcastInDim_1b_ab_apply {a b : ℕ} (x : (⟨2, ![1, b]⟩ : Shape).Idx → α)
    (h : (⟨2, ![1, b]⟩ : Shape).BroadcastsInDim ⟨2, ![a, b]⟩ ![0, 1]) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ =>
    show (0 : ℕ) = if (1 : ℕ) = 1 then 0 else i.val
    rw [if_pos rfl]
  | ⟨1, _⟩ =>
    show j.val = if b = 1 then 0 else j.val
    split
    · have := j.isLt; omega
    · rfl

end Cert.Lib.RowBroadcast
-- ==== Proof.RefOut.lean ====
/-
  THE REFERENCE'S FIRST AND THIRD RESULTS, AT THE EXACT (EXTENDED-REAL) VALUES.

  The first result is the network's value on every row of the joined inputs (ref_out): stated as uncur of Net.lean's
  row-by-row function `out` of the stored arrays. The third, the second derivative, is a table of zeros (ref_hess): a
  rectified network is piecewise affine, and the program itself builds that result from the zero constant.
-/
import proofs.«180682_j15178414424664_1_alg».proof.Proof.Gen.ReferenceIdeal.Read
import proofs.«180682_j15178414424664_1_alg».proof.Proof.Arrays
import proofs.«180682_j15178414424664_1_alg».proof.Proof.LibRowDots
import proofs.«180682_j15178414424664_1_alg».proof.Proof.LibRowBroadcast
import proofs.«180682_j15178414424664_1_alg».proof.Proof.LibRowNetLayout
import Idealize.ShloMosaic.Lib.ValueLayout
import Idealize.ShloMosaic.Lib.Pipeline.Value

noncomputable section

open scoped BigOperators

namespace Cert.ReferenceIdeal.RefOut

open Cert.ReferenceIdeal Cert.ReferenceIdeal.Gen Cert.Net Idealize.ShloMosaic Idealize.ShloMosaic.ValueIdx

/-! ## The layers, array by array

Each printed operation of the forward pass, applied to stored tables, is the stored form of one row-by-row function of
Net.lean: an entry of the result at (r, j) is computed from row r of the operands alone. The statements are generic in
the numbers of rows and columns. -/

section Layers

variable {M K N : ℕ}

/-- Two tables of four columns laid side by side along the columns: column k < 4 of the result is column k of the
    first table, column k ≥ 4 is column k - 4 of the second. -/
private theorem join_layer
    (h : Shape.Concatenates [(⟨2, ![M, 4]⟩ : Shape), (⟨2, ![M, 4]⟩ : Shape)] (⟨2, ![M, 8]⟩ : Shape) 1) (x t : Tab M 4) :
    concatenate (⟨2, ![M, 8]⟩ : Shape) 1 [⟨(⟨2, ![M, 4]⟩ : Shape), x⟩, ⟨(⟨2, ![M, 4]⟩ : Shape), t⟩] h
      = uncur (join (cur x) (cur t)) := by
  funext i
  obtain ⟨r, k, rfl⟩ : ∃ r k, i = ix2 r k := ⟨i 0, i 1, eq_ix2 i⟩
  show _ = join (cur x) (cur t) r k
  unfold join
  by_cases hk : k.val < 4
  · rw [dif_pos hk]
    exact concatenate_pair_apply_left 1 x t h (ix2 r k) rfl (ix2 r ⟨k.val, hk⟩) (fun b => match b with
      | ⟨0, _⟩ => rfl
      | ⟨1, _⟩ => rfl)
  · rw [dif_neg hk]
    exact concatenate_pair_apply_right 1 x t h (ix2 r k) rfl rfl (ix2 r ⟨k.val - 4, by omega⟩)
      (fun b hb => match b, hb with
        | ⟨0, _⟩, _ => rfl
        | ⟨1, _⟩, hb => absurd rfl hb)
      (by show k.val - 4 + 4 = k.val; omega)

/-- An affine layer: the product of a table with the weight table (entry (r, j) is the sum over k of the entries
    (r, k) times the weights (k, j)), then the bias row, placed as one row and repeated over all rows, added. -/
private theorem lin_layer
    {d : DotDims (⟨2, ![M, K]⟩ : Shape) (⟨2, ![K, N]⟩ : Shape) (⟨2, ![M, N]⟩ : Shape)} (hd : Cert.Lib.RowDots.Plain d)
    (h1 : (⟨1, ![N]⟩ : Shape).BroadcastsInDim ⟨2, ![1, N]⟩ ![1])
    (h2 : (⟨2, ![1, N]⟩ : Shape).BroadcastsInDim ⟨2, ![M, N]⟩ ![0, 1])
    (A : Tab M K) (W : Tab K N) (b : Row N) :
    addf (F := Ideal) (φ := .f32) (Host.dotGeneral (F := Ideal) (φ₁ := .f32) (φ₂ := .f32) d none A W)
        (broadcastInDim ⟨2, ![M, N]⟩ ![0, 1] h2 (broadcastInDim ⟨2, ![1, N]⟩ ![1] h1 b))
      = uncur (lin (cur W) (cur1 b) (cur A)) := by
  funext i
  obtain ⟨r, j, rfl⟩ : ∃ r j, i = ix2 r j := ⟨i 0, i 1, eq_ix2 i⟩
  rw [addf_apply]
  simp only [Host.dotGeneral]
  rw [hd.dotGeneral_apply, Cert.Lib.RowBroadcast.broadcastInDim_1b_ab_apply,
    Cert.Lib.RowBroadcast.broadcastInDim_b_1b_apply]
  rfl

/-- The rectifier: the entrywise maximum with the constant zero repeated over the table. -/
private theorem relu_layer (h : (⟨0, ![]⟩ : Shape).BroadcastsInDim (⟨2, ![M, N]⟩ : Shape) ![]) (A : Tab M N) :
    maximumf (F := Ideal) (φ := .f32) A
        (broadcastInDim (⟨2, ![M, N]⟩ : Shape) ![] h (constant (F := Ideal) (⟨0, ![]⟩ : Shape) .f32 0x00000000#32))
      = uncur (relu (cur A)) := by
  funext i
  obtain ⟨r, j, rfl⟩ : ∃ r j, i = ix2 r j := ⟨i 0, i 1, eq_ix2 i⟩
  rw [maximumf_apply, Cert.RefLayout.broadcastInDim_scalar_apply, constant_apply, Ideal.ofBits_zero_f32]
  rfl

end Layers

/-! ## The three products' dimension numbers

Each of the forward pass's products contracts the left table's columns with the right table's rows and has no batch
axes. -/

private theorem plain_first : Cert.Lib.RowDots.Plain dot_S131072x8_S8x64_S131072x64_1_0_0_1_n_n :=
  ⟨rfl, rfl, rfl, rfl, rfl, rfl⟩

private theorem plain_hidden : Cert.Lib.RowDots.Plain dot_S131072x64_S64x64_S131072x64_1_0_0_1_n_n :=
  ⟨rfl, rfl, rfl, rfl, rfl, rfl⟩

private theorem plain_last : Cert.Lib.RowDots.Plain dot_S131072x64_S64x1_S131072x1_1_0_0_1_n_n :=
  ⟨rfl, rfl, rfl, rfl, rfl, rfl⟩

variable (x0 x1 x3 : (⟨S131072x4, .f32⟩ : BufTy).Contents (Elt Ideal)) (x4 : (⟨S8x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal)) (x10 : (⟨S64x1, .f32⟩ : BufTy).Contents (Elt Ideal))
  (x11 : (⟨S1, .f32⟩ : BufTy).Contents (Elt Ideal))

/-- The first result: the network's value, row by row. -/
theorem ref_out :
    Read.val_main_v19 (F := Ideal) x0 x3 x4 x5 x6 x7 x8 x9 x10 x11
      = uncur (out (params x4 x5 x6 x7 x8 x9 x10 x11) (cur x0) (cur x3)) := by
  -- the stage as the printed term: join, then three times (affine layer, rectifier), then the last affine layer
  rw [← Read.val_main_v19_eq]
  rw [join_layer, lin_layer plain_first, relu_layer, lin_layer plain_hidden, relu_layer, lin_layer plain_hidden,
    relu_layer, lin_layer plain_last]
  -- both sides are now the same composition of the row-by-row functions
  rfl

/-- The third result: zeros. -/
theorem ref_hess : Read.val_main_v170 (F := Ideal) = fun _ => (0 : EReal) := by
  -- every entry is read, through two repetitions and a full slice, from the constant whose word encodes zero
  funext i
  rw [Read.val_main_v170_apply, Read.val_main_v169_apply, Read.val_main_v168_apply, Read.val_main_v167_apply,
    Read.val_main_cst_29_apply]
  exact Ideal.ofBits_zero_f32

end Cert.ReferenceIdeal.RefOut

end
-- ==== Proof.RefGrad.lean ====
/-
  THE REFERENCE'S SECOND RESULT, AT THE EXACT (EXTENDED-REAL) VALUES.

  It is the derivative of the summed network value in the first input, computed backwards: the cotangent 1 of every
  row's value is pulled through the last layer (a product with the one-column table's transpose: 1 · Wf[j, 0]), then
  in turn gated by each rectifier (select on "pre-activation > 0") and pulled through each layer's transposed table;
  of the joined row's eight entries the first four are kept. Stated as uncur of Net.lean's row-by-row function
  `grad` of the stored arrays (ref_grad).

  The proof reads the program one layer at a time. Each layer is one lemma about arrays: a product with a weight
  table plus a repeated bias row is `lin`, the maximum with the repeated zero is `relu`, the selection on
  "pre-activation > 0" between a cotangent and the repeated zero is `gate`, a product contracting both operands'
  second axes is `back`, the two four-column tables laid side by side are `join`, and the first four of eight
  columns are the positions `lo`. The stages of the program are then these lemmas applied from the inside out.
-/
import proofs.«180682_j15178414424664_1_alg».proof.Proof.Gen.ReferenceIdeal.Read
import proofs.«180682_j15178414424664_1_alg».proof.Proof.Arrays
import proofs.«180682_j15178414424664_1_alg».proof.Proof.LibRowDots
import proofs.«180682_j15178414424664_1_alg».proof.Proof.LibRowBroadcast
import proofs.«180682_j15178414424664_1_alg».proof.Proof.LibRowNetLayout
import Idealize.ShloMosaic.Lib.ValueLayout
import Idealize.ShloMosaic.Lib.Pipeline.Value
import Idealize.ShloMosaic.Lib.IdealHost

noncomputable section

open scoped BigOperators

namespace Cert.ReferenceIdeal.RefGrad

open Cert.ReferenceIdeal Cert.ReferenceIdeal.Gen Cert.Net Idealize.ShloMosaic Idealize.ShloMosaic.ValueIdx

/-! ## A product whose right operand is stored transposed: [M, K] × [N, K] → [M, N]

  Both operands' second axes are contracted; the left operand's rows and the right operand's rows are kept. The left
  index at result index (i, j) and contraction position k is (i, k), the right index is (j, k). -/

/-- Reading one function of indices at two equal positions. -/
private theorem val_congr {r : Nat} {n : Fin r → Nat} (j : (a : Fin r) → Fin (n a)) (p p' : Nat) (hp : p < r) (hp' : p' < r)
    (e : p = p') : (j ⟨p, hp⟩).val = (j ⟨p', hp'⟩).val := by subst e; rfl

section Trans

variable {M K N : Nat} (d : DotDims (⟨2, ![M, K]⟩ : Shape) (⟨2, ![N, K]⟩ : Shape) (⟨2, ![M, N]⟩ : Shape))

/-- The dimension numbers of g · wᵀ: contract left axis 1 with right axis 1, keep left axis 0 and right axis 0, no
    batch axes. -/
private structure Trans : Prop where
  lc : d.lhsContracting = [1]
  rc : d.rhsContracting = [1]
  ln : d.lhsNonContracting = [0]
  rn : d.rhsNonContracting = [0]
  lb : d.lhsBatch = []
  rb : d.rhsBatch = []

variable {d}

private theorem Trans.contr_rank (h : Trans d) : d.contr.rank = 1 := by rw [d.rank_contr, h.lc]; rfl

private theorem Trans.contr_size (h : Trans d) : d.contr.size ⟨0, by rw [h.contr_rank]; exact Nat.one_pos⟩ = K := by
  have hp : 0 < d.lhsContracting.length := by rw [h.lc]; exact Nat.one_pos
  rw [d.size_contr 0 hp]
  have : d.lhsContracting[0] = (1 : Fin 2) := by simp [h.lc]
  rw [this]; rfl

/-- The left operand's row is the result's row. -/
private theorem Trans.lhs_row (h : Trans d) (j : (⟨2, ![M, N]⟩ : Shape).Idx) (q : d.contr.Idx) : (d.lhsIdx j q 0).val = (j 0).val := by
  have hb : (0 : Fin (⟨2, ![M, K]⟩ : Shape).rank) ∉ d.lhsBatch := by rw [h.lb]; exact List.not_mem_nil
  have hn : (0 : Fin (⟨2, ![M, K]⟩ : Shape).rank) ∈ d.lhsNonContracting := by rw [h.ln]; exact List.mem_singleton.mpr rfl
  unfold DotDims.lhsIdx
  rw [dif_neg hb, dif_pos hn]
  simp only [Fin.val_cast]
  exact val_congr j _ 0 _ Nat.zero_lt_two (by simp [h.lb, h.ln])

/-- The left operand's column is the contraction position. -/
private theorem Trans.lhs_col (h : Trans d) (j : (⟨2, ![M, N]⟩ : Shape).Idx) (q : d.contr.Idx) :
    (d.lhsIdx j q 1).val = (q ⟨0, by rw [h.contr_rank]; exact Nat.one_pos⟩).val :=
  d.lhsIdx_val_of_single h.lc j q

/-- The right operand's row is the result's column. -/
private theorem Trans.rhs_row (h : Trans d) (j : (⟨2, ![M, N]⟩ : Shape).Idx) (q : d.contr.Idx) : (d.rhsIdx j q 0).val = (j 1).val := by
  have hb : (0 : Fin (⟨2, ![N, K]⟩ : Shape).rank) ∉ d.rhsBatch := by rw [h.rb]; exact List.not_mem_nil
  have hn : (0 : Fin (⟨2, ![N, K]⟩ : Shape).rank) ∈ d.rhsNonContracting := by rw [h.rn]; exact List.mem_singleton.mpr rfl
  unfold DotDims.rhsIdx
  rw [dif_neg hb, dif_pos hn]
  simp only [Fin.val_cast]
  exact val_congr j _ 1 _ Nat.one_lt_two (by simp [h.lb, h.ln, h.rn])

/-- The right operand's column is the contraction position. -/
private theorem Trans.rhs_col (h : Trans d) (j : (⟨2, ![M, N]⟩ : Shape).Idx) (q : d.contr.Idx) :
    (d.rhsIdx j q 1).val = (q ⟨0, by rw [h.contr_rank]; exact Nat.one_pos⟩).val :=
  d.rhsIdx_val_of_single h.rc j q

/-- The contraction's sum, re-indexed by the one contracted coordinate. -/
private theorem Trans.sum_eq (h : Trans d) (l : (⟨2, ![M, K]⟩ : Shape).Idx → EReal) (r : (⟨2, ![N, K]⟩ : Shape).Idx → EReal)
    (j : (⟨2, ![M, N]⟩ : Shape).Idx) :
    ∑ q : d.contr.Idx, l (d.lhsIdx j q) * r (d.rhsIdx j q) = ∑ k : Fin K, l (ix2 (j 0) k) * r (ix2 (j 1) k) := by
  rw [← Equiv.sum_comp (contrEquiv1 d K h.contr_rank h.contr_size).symm]
  refine Finset.sum_congr rfl fun k _ => ?_
  have hk := contrEquiv1_symm_val d K h.contr_rank h.contr_size k
  have el : d.lhsIdx j ((contrEquiv1 d K h.contr_rank h.contr_size).symm k) = ix2 (j 0) k := funext fun a => Fin.ext (by
    match a with
    | ⟨0, _⟩ => exact h.lhs_row _ _
    | ⟨1, _⟩ => exact (h.lhs_col _ _).trans hk)
  have er : d.rhsIdx j ((contrEquiv1 d K h.contr_rank h.contr_size).symm k) = ix2 (j 1) k := funext fun a => Fin.ext (by
    match a with
    | ⟨0, _⟩ => exact h.rhs_row _ _
    | ⟨1, _⟩ => exact (h.rhs_col _ _).trans hk)
  exact congrArg₂ (· * ·) (congrArg l el) (congrArg r er)

/-- The accumulator-free general dot with a transposed right operand, at an index. -/
private theorem Trans.dotGeneral_apply (h : Trans d) {φ₁ φ₂ : FTy} (prec : Option ContractPrecision) (sched : HostSchedule)
    (l : FVec Ideal (⟨2, ![M, K]⟩ : Shape) φ₁) (r : FVec Ideal (⟨2, ![N, K]⟩ : Shape) φ₂) (j : (⟨2, ![M, N]⟩ : Shape).Idx) :
    FloatOps.dotGeneral d prec sched l r j = ∑ k : Fin K, l (ix2 (j 0) k) * r (ix2 (j 1) k) :=
  (Ideal.dotGeneral_apply d prec sched l r j).trans (h.sum_eq l r j)

end Trans

/-! ## The layers, array by array -/

section Layers

variable {M K N : ℕ}

/-- The zero constant repeated over any shape reads 0 everywhere. -/
private theorem zeros_apply {t : Shape} (h : (⟨0, ![]⟩ : Shape).BroadcastsInDim t ![]) (j : t.Idx) :
    broadcastInDim t ![] h (constant (F := Ideal) ⟨0, ![]⟩ .f32 0x00000000#32) j = (0 : EReal) := by
  rw [ValueIdx.broadcastInDim_scalar_apply h]
  exact Ideal.ofBits_zero_f32

/-- The one constant repeated over any shape reads 1 everywhere. -/
private theorem ones_apply {t : Shape} (h : (⟨0, ![]⟩ : Shape).BroadcastsInDim t ![]) (j : t.Idx) :
    broadcastInDim t ![] h (constant (F := Ideal) ⟨0, ![]⟩ .f32 0x3F800000#32) j = (1 : EReal) := by
  rw [ValueIdx.broadcastInDim_scalar_apply h]
  exact Ideal.ofBits_one_f32

/-- Two four-column tables laid side by side. -/
private theorem join_eq (hc : Shape.Concatenates [(⟨2, ![M, 4]⟩ : Shape), ⟨2, ![M, 4]⟩] ⟨2, ![M, 8]⟩ 1) (X T : Tab M 4) :
    concatenate (⟨2, ![M, 8]⟩ : Shape) 1 [⟨⟨2, ![M, 4]⟩, X⟩, ⟨⟨2, ![M, 4]⟩, T⟩] hc = uncur (join (cur X) (cur T)) := by
  funext i
  obtain ⟨r, k, rfl⟩ : ∃ r k, i = ix2 r k := ⟨i 0, i 1, eq_ix2 i⟩
  show _ = join (cur X) (cur T) r k
  unfold join
  have hk8 := k.isLt
  split
  · rename_i hk
    exact concatenate_pair_apply_left 1 X T hc (ix2 r k) rfl (ix2 r ⟨k.val, hk⟩) (fun b => by
      match b with
      | ⟨0, _⟩ => rfl
      | ⟨1, _⟩ => rfl)
  · rename_i hk
    exact concatenate_pair_apply_right 1 X T hc (ix2 r k) rfl rfl (ix2 r ⟨k.val - 4, by omega⟩) (fun b hb => by
      match b with
      | ⟨0, _⟩ => rfl
      | ⟨1, _⟩ => exact absurd rfl hb)
      (by show (k.val - 4) + 4 = k.val; omega)

/-- An affine layer: the product with the weight table plus the bias row repeated over the rows. -/
private theorem lin_eq (d : DotDims (⟨2, ![M, K]⟩ : Shape) ⟨2, ![K, N]⟩ ⟨2, ![M, N]⟩) (hd : Cert.Lib.RowDots.Plain d)
    (h1 : (⟨1, ![N]⟩ : Shape).BroadcastsInDim ⟨2, ![1, N]⟩ ![1])
    (h2 : (⟨2, ![1, N]⟩ : Shape).BroadcastsInDim ⟨2, ![M, N]⟩ ![0, 1])
    (A : Tab M K) (W : Tab K N) (b : Row N) :
    addf (F := Ideal) (φ := .f32) (Host.dotGeneral (F := Ideal) (φ₁ := .f32) (φ₂ := .f32) d none A W)
        (broadcastInDim ⟨2, ![M, N]⟩ ![0, 1] h2 (broadcastInDim ⟨2, ![1, N]⟩ ![1] h1 b))
      = uncur (lin (cur W) (cur1 b) (cur A)) := by
  funext i
  obtain ⟨r, j, rfl⟩ : ∃ r j, i = ix2 r j := ⟨i 0, i 1, eq_ix2 i⟩
  rw [addf_apply]
  simp only [Host.dotGeneral]
  rw [hd.dotGeneral_apply, Cert.Lib.RowBroadcast.broadcastInDim_1b_ab_apply, Cert.Lib.RowBroadcast.broadcastInDim_b_1b_apply]
  rfl

/-- The rectifier: the maximum with the repeated zero. -/
private theorem relu_eq (h0 : (⟨0, ![]⟩ : Shape).BroadcastsInDim ⟨2, ![M, N]⟩ ![]) (A : Tab M N) :
    maximumf (F := Ideal) (φ := .f32) A (broadcastInDim ⟨2, ![M, N]⟩ ![] h0 (constant (F := Ideal) ⟨0, ![]⟩ .f32 0x00000000#32))
      = uncur (relu (cur A)) := by
  funext i
  obtain ⟨r, j, rfl⟩ : ∃ r j, i = ix2 r j := ⟨i 0, i 1, eq_ix2 i⟩
  rw [maximumf_apply, zeros_apply]
  rfl

/-- The rectifier's pull-back: the cotangent where the pre-activation is above the repeated zero, the repeated zero
    elsewhere. -/
private theorem gate_eq (h0 : (⟨0, ![]⟩ : Shape).BroadcastsInDim ⟨2, ![M, N]⟩ ![]) (Z G : Tab M N) :
    select (cmpf (F := Ideal) (φ := .f32) .ogt Z (broadcastInDim ⟨2, ![M, N]⟩ ![] h0 (constant (F := Ideal) ⟨0, ![]⟩ .f32 0x00000000#32)))
        G (broadcastInDim ⟨2, ![M, N]⟩ ![] h0 (constant (F := Ideal) ⟨0, ![]⟩ .f32 0x00000000#32))
      = uncur (gate (cur Z) (cur G)) := by
  funext i
  obtain ⟨r, j, rfl⟩ : ∃ r j, i = ix2 r j := ⟨i 0, i 1, eq_ix2 i⟩
  rw [select_apply, cmpf_apply, zeros_apply, Ideal.cmpf_def]
  show Scalar.select (Ideal.cmp .ogt (Z (ix2 r j)) 0) (G (ix2 r j)) 0 = if 0 < Z (ix2 r j) then G (ix2 r j) else 0
  unfold Ideal.cmp Scalar.select
  by_cases hz : 0 < Z (ix2 r j)
  · simp [hz]
  · simp [hz]

/-- An affine layer's pull-back: the product with the weight table stored as it is, contracted along its columns. -/
private theorem back_eq (d : DotDims (⟨2, ![M, K]⟩ : Shape) ⟨2, ![N, K]⟩ ⟨2, ![M, N]⟩) (hd : Trans d) (G : Tab M K) (W : Tab N K) :
    Host.dotGeneral (F := Ideal) (φ₁ := .f32) (φ₂ := .f32) d none G W = uncur (back (cur W) (cur G)) := by
  funext i
  obtain ⟨r, j, rfl⟩ : ∃ r j, i = ix2 r j := ⟨i 0, i 1, eq_ix2 i⟩
  simp only [Host.dotGeneral]
  rw [hd.dotGeneral_apply]
  rfl

/-- The cotangent 1 of every row pulled through a one-column table: a sum of one term, 1 · W[j, 0]. -/
private theorem ones_back_eq (d : DotDims (⟨2, ![M, 1]⟩ : Shape) ⟨2, ![N, 1]⟩ ⟨2, ![M, N]⟩) (hd : Trans d)
    (h0 : (⟨0, ![]⟩ : Shape).BroadcastsInDim ⟨2, ![M, 1]⟩ ![]) (W : Tab N 1) :
    Host.dotGeneral (F := Ideal) (φ₁ := .f32) (φ₂ := .f32) d none
        (broadcastInDim ⟨2, ![M, 1]⟩ ![] h0 (constant (F := Ideal) ⟨0, ![]⟩ .f32 0x3F800000#32)) W
      = uncur (fun _ j => cur W j 0) := by
  funext i
  obtain ⟨r, j, rfl⟩ : ∃ r j, i = ix2 r j := ⟨i 0, i 1, eq_ix2 i⟩
  simp only [Host.dotGeneral]
  rw [hd.dotGeneral_apply, Fin.sum_univ_one, ones_apply, one_mul]
  rfl

/-- The first four of eight columns. -/
private theorem lo_eq (hs : (⟨2, ![M, 8]⟩ : Shape).Slices ![0, 0] ⟨2, ![M, 4]⟩) (X : Tab M 8) :
    extractStridedSlice (⟨2, ![M, 4]⟩ : Shape) ![0, 0] X hs = uncur (fun r c => cur X r (lo c)) := by
  funext i
  obtain ⟨r, c, rfl⟩ : ∃ r c, i = ix2 r c := ⟨i 0, i 1, eq_ix2 i⟩
  exact slice2_axis1_apply 0 X hs r c (lo c) (Nat.zero_add _).symm

end Layers

/-! ## The dimension numbers and the program's stages -/

private theorem plain_8_64 : Cert.Lib.RowDots.Plain dot_S131072x8_S8x64_S131072x64_1_0_0_1_n_n := ⟨rfl, rfl, rfl, rfl, rfl, rfl⟩
private theorem plain_64_64 : Cert.Lib.RowDots.Plain dot_S131072x64_S64x64_S131072x64_1_0_0_1_n_n := ⟨rfl, rfl, rfl, rfl, rfl, rfl⟩
private theorem trans_1_64 : Trans dot_S131072x1_S64x1_S131072x64_1_1_0_0_n_n := ⟨rfl, rfl, rfl, rfl, rfl, rfl⟩
private theorem trans_64_64 : Trans dot_S131072x64_S64x64_S131072x64_1_1_0_0_n_n := ⟨rfl, rfl, rfl, rfl, rfl, rfl⟩
private theorem trans_64_8 : Trans dot_S131072x64_S8x64_S131072x8_1_1_0_0_n_n := ⟨rfl, rfl, rfl, rfl, rfl, rfl⟩

variable (x0 x1 x3 : (⟨S131072x4, .f32⟩ : BufTy).Contents (Elt Ideal)) (x4 : (⟨S8x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x8 : (⟨S64x64, .f32⟩ : BufTy).Contents (Elt Ideal))
  (x9 : (⟨S64, .f32⟩ : BufTy).Contents (Elt Ideal)) (x10 : (⟨S64x1, .f32⟩ : BufTy).Contents (Elt Ideal))
  (x11 : (⟨S1, .f32⟩ : BufTy).Contents (Elt Ideal))

/-- The joined input rows. -/
private theorem v20_eq : Read.val_main_v20 (F := Ideal) x1 x3 = uncur (join (cur x1) (cur x3)) := by
  unfold Read.val_main_v20
  exact join_eq _ x1 x3

/-- The first pre-activation. -/
private theorem v25_eq : Read.val_main_v25 (F := Ideal) x1 x3 x4 x5
    = uncur (pre1 (params x4 x5 x6 x7 x8 x9 x10 x11) (cur x1) (cur x3)) := by
  unfold Read.val_main_v25 Read.val_main_v22 Read.val_main_v24 Read.val_main_v23
  rw [v20_eq]
  exact lin_eq _ plain_8_64 _ _ _ x4 x5

/-- The first activation. -/
private theorem v26_eq : Read.val_main_v26 (F := Ideal) x1 x3 x4 x5
    = uncur (relu (pre1 (params x4 x5 x6 x7 x8 x9 x10 x11) (cur x1) (cur x3))) := by
  unfold Read.val_main_v26 Read.val_main_call3_v0 Read.val_main_call3_cst
  rw [v25_eq x1 x3 x4 x5 x6 x7 x8 x9 x10 x11]
  exact relu_eq _ _

/-- The second pre-activation. -/
private theorem v33_eq : Read.val_main_v33 (F := Ideal) x1 x3 x4 x5 x6 x7
    = uncur (pre2 (params x4 x5 x6 x7 x8 x9 x10 x11) (cur x1) (cur x3)) := by
  unfold Read.val_main_v33 Read.val_main_v30 Read.val_main_v32 Read.val_main_v31
  rw [v26_eq x1 x3 x4 x5 x6 x7 x8 x9 x10 x11]
  exact lin_eq _ plain_64_64 _ _ _ x6 x7

/-- The second activation. -/
private theorem v34_eq : Read.val_main_v34 (F := Ideal) x1 x3 x4 x5 x6 x7
    = uncur (relu (pre2 (params x4 x5 x6 x7 x8 x9 x10 x11) (cur x1) (cur x3))) := by
  unfold Read.val_main_v34 Read.val_main_call4_v0 Read.val_main_call4_cst
  rw [v33_eq x1 x3 x4 x5 x6 x7 x8 x9 x10 x11]
  exact relu_eq _ _

/-- The third pre-activation. -/
private theorem v41_eq : Read.val_main_v41 (F := Ideal) x1 x3 x4 x5 x6 x7 x8 x9
    = uncur (pre3 (params x4 x5 x6 x7 x8 x9 x10 x11) (cur x1) (cur x3)) := by
  unfold Read.val_main_v41 Read.val_main_v38 Read.val_main_v40 Read.val_main_v39
  rw [v34_eq x1 x3 x4 x5 x6 x7 x8 x9 x10 x11]
  exact lin_eq _ plain_64_64 _ _ _ x8 x9

/-- The cotangent 1 pulled through the last layer. -/
private theorem v52_eq : Read.val_main_v52 (F := Ideal) x10 = uncur (fun (_ : Fin 131072) j => cur x10 j 0) := by
  unfold Read.val_main_v52 Read.val_main_v51 Read.val_main_cst_7
  exact ones_back_eq _ trans_1_64 _ x10

/-- The cotangent at the third pre-activation. -/
private theorem v54_eq : Read.val_main_v54 (F := Ideal) x1 x3 x4 x5 x6 x7 x8 x9 x10
    = uncur (cot3 (params x4 x5 x6 x7 x8 x9 x10 x11) (cur x1) (cur x3)) := by
  unfold Read.val_main_v54 Read.val_main_v44 Read.val_main_v43 Read.val_main_cst_4 Read.val_main_v53 Read.val_main_cst_8
  rw [v41_eq x1 x3 x4 x5 x6 x7 x8 x9 x10 x11, v52_eq]
  exact gate_eq _ _ _

/-- The cotangent at the second pre-activation. -/
private theorem v57_eq : Read.val_main_v57 (F := Ideal) x1 x3 x4 x5 x6 x7 x8 x9 x10
    = uncur (cot2 (params x4 x5 x6 x7 x8 x9 x10 x11) (cur x1) (cur x3)) := by
  unfold Read.val_main_v57 Read.val_main_v36 Read.val_main_v35 Read.val_main_cst_2 Read.val_main_v56 Read.val_main_cst_9
    Read.val_main_v55
  rw [v33_eq x1 x3 x4 x5 x6 x7 x8 x9 x10 x11, v54_eq x1 x3 x4 x5 x6 x7 x8 x9 x10 x11, back_eq _ trans_64_64]
  exact gate_eq _ _ _

/-- The cotangent at the first pre-activation. -/
private theorem v60_eq : Read.val_main_v60 (F := Ideal) x1 x3 x4 x5 x6 x7 x8 x9 x10
    = uncur (cot1 (params x4 x5 x6 x7 x8 x9 x10 x11) (cur x1) (cur x3)) := by
  unfold Read.val_main_v60 Read.val_main_v28 Read.val_main_v27 Read.val_main_cst_0 Read.val_main_v59 Read.val_main_cst_10
    Read.val_main_v58
  rw [v25_eq x1 x3 x4 x5 x6 x7 x8 x9 x10 x11, v57_eq x1 x3 x4 x5 x6 x7 x8 x9 x10 x11, back_eq _ trans_64_64]
  exact gate_eq _ _ _

/-- The second result: the derivative in the first input, row by row (it does not depend on the last bias). -/
theorem ref_grad :
    Read.val_main_v62 (F := Ideal) x1 x3 x4 x5 x6 x7 x8 x9 x10
      = uncur (grad (params x4 x5 x6 x7 x8 x9 x10 x11) (cur x1) (cur x3)) := by
  unfold Read.val_main_v62 Read.val_main_v61
  rw [v60_eq x1 x3 x4 x5 x6 x7 x8 x9 x10 x11, back_eq _ trans_64_8]
  exact lo_eq _ _

end Cert.ReferenceIdeal.RefGrad

end
-- ==== Proof.lean ====
/-
  THE CERTIFICATE OF A FUSED KERNEL FOR A SMALL RECTIFIED NETWORK AGAINST ITS REFERENCE, OVER THE EXTENDED REALS.

  The network: three hidden layers of width 64 with max(·, 0) between them, reading a row x of 4 entries joined with a
  row t of 4 entries, one output. Three results are claimed equal: the network's value on (x1, x4); the derivative of
  the value in x on (x2, x4), computed backwards through the rectifiers' gates; and the second derivative on (x3, x4),
  which both programs build from the zero constant (a rectified network is piecewise affine).

  The kernel cuts the batch of 131072 rows into 64 blocks of 2048 rows and computes the first layer as
  x · W1[0:4] + t · W1[4:8], gates a cotangent by multiplying it with a 0/1 mask, and multiplies by transposed copies
  of the weight tables prepared before the launch; the reference joins the rows, multiplies by W1 whole, gates by a
  selection, and contracts against the tables' second axis. On the extended reals these are the same numbers: a sum
  over eight positions is the sum over the first four plus the sum over the last four, g · 1 = g and g · 0 = 0, and a
  transposed table read at (k, j) is the table at (j, k). No law used needs finite entries, so the precondition is not
  opened.

  Net.lean states the network row by row; KerPay.lean, KerBlocks.lean and KerRun.lean read the kernel's results after its
  run as that network of the arguments; RefOut.lean and RefGrad.lean read the reference's; here both runs are set side
  by side. The ideal pass rewrote nothing, so the kernel's idealization is its own text.
-/
import proofs.«180682_j15178414424664_1_alg».proof.Defs
import proofs.«180682_j15178414424664_1_alg».proof.Proof.Gen.Kernel
import proofs.«180682_j15178414424664_1_alg».proof.Proof.Gen.Kernel.Skeleton
import proofs.«180682_j15178414424664_1_alg».proof.Proof.Gen.Kernel.Launch
import proofs.«180682_j15178414424664_1_alg».proof.Proof.Gen.Kernel.Points
import proofs.«180682_j15178414424664_1_alg».proof.Proof.Gen.Kernel.Frame
import proofs.«180682_j15178414424664_1_alg».proof.Proof.Gen.KernelIdeal
import proofs.«180682_j15178414424664_1_alg».proof.Proof.Gen.KernelIdeal.Skeleton
import proofs.«180682_j15178414424664_1_alg».proof.Proof.Gen.KernelIdeal.Launch
import proofs.«180682_j15178414424664_1_alg».proof.Proof.Gen.KernelIdeal.Points
import proofs.«180682_j15178414424664_1_alg».proof.Proof.Gen.KernelIdeal.Frame
import proofs.«180682_j15178414424664_1_alg».proof.Proof.Gen.ReferenceIdeal
import proofs.«180682_j15178414424664_1_alg».proof.Proof.Gen.Pre_finite_inputs
import proofs.«180682_j15178414424664_1_alg».proof.Proof.Gen.ReferenceIdeal.Run
import proofs.«180682_j15178414424664_1_alg».proof.Proof.Gen.ReferenceIdeal.Read
import proofs.«180682_j15178414424664_1_alg».proof.Proof.KerRun
import proofs.«180682_j15178414424664_1_alg».proof.Proof.RefOut
import proofs.«180682_j15178414424664_1_alg».proof.Proof.RefGrad
import Idealize.ShloMosaic.Adequacy
import Idealize.ShloMosaic.Init

noncomputable section

namespace Cert.Proof

open Idealize.ShloMosaic Idealize.SL.Sem

/-- The printed kernel runs and keeps its arguments. -/
theorem frame_k : Cert.frame_Kernel := fun m ρ _ => Cert.Kernel.Gen.frame m ρ

/-- So does its reading at the exact values. -/
theorem frame_ki : Cert.frame_KernelIdeal := fun m ρ _ => Cert.KernelIdeal.Gen.frame m ρ

/-- The reference runs and keeps its arguments: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- From arguments that agree, the kernel's three results and the reference's are the same functions of them: the
    network's value, its derivative, and zeros. -/
theorem algebraic : Cert.algebraic_KernelIdeal_ReferenceIdeal := by
  intro m ρ m' ρ' _ hagree
  refine ⟨fun c => Cert.KernelIdeal.Whole.Y m c, fun c => Cert.KernelIdeal.Whole.DY m c, fun _ => (fun _ => (0 : EReal)),
    Cert.KernelIdeal.Whole.run m ρ, ?_⟩
  refine (θ_run Cert.ReferenceIdeal.defs _ _).mono (fun _ h c => ?_) (Cert.ReferenceIdeal.Value.run (F := Ideal) m' ρ')
  obtain ⟨h19, h62, h170, hkept⟩ := h c
  obtain ⟨a0, a1, a2, a3, a4, a5, a6, a7, a8, a9, a10, a11⟩ := hagree c
  refine ⟨h19.trans ?_, h62.trans ?_, h170.trans ?_, hkept⟩
  · rw [Cert.ReferenceIdeal.Read.val_main_v19_eq, Cert.ReferenceIdeal.RefOut.ref_out, a0, a3, a4, a5, a6, a7, a8, a9, a10, a11]
    rfl
  · rw [Cert.ReferenceIdeal.Read.val_main_v62_eq,
      Cert.ReferenceIdeal.RefGrad.ref_grad _ _ _ _ _ _ _ _ _ (m' ((c.tc : Thread Cert.ReferenceIdeal.nD Cert.ReferenceIdeal.τ).loc Cert.ReferenceIdeal.main_arg11)),
      a1, a3, a4, a5, a6, a7, a8, a9, a10, a11]
    rfl
  · rw [Cert.ReferenceIdeal.Read.val_main_v170_eq]
    exact Cert.ReferenceIdeal.RefOut.ref_hess

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
